-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2 : Shape := ⟨2, ![4096, 2]⟩
abbrev S100000x32 : Shape := ⟨2, ![100000, 32]⟩
abbrev S10000x32 : Shape := ⟨2, ![10000, 32]⟩
abbrev S128x64 : Shape := ⟨2, ![128, 64]⟩
abbrev S128 : Shape := ⟨1, ![128]⟩
abbrev S128x128 : Shape := ⟨2, ![128, 128]⟩
abbrev S10000x10128 : Shape := ⟨2, ![10000, 10128]⟩
abbrev S10000 : Shape := ⟨1, ![10000]⟩
abbrev S_ : Shape := ⟨0, ![]⟩
abbrev S4096x1 : Shape := ⟨2, ![4096, 1]⟩
abbrev S4096 : Shape := ⟨1, ![4096]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S10000x32 : S_.BroadcastsInDim S10000x32 (![] : Fin 0 → Fin S10000x32.rank)
  reducesTo_S10000x32_S_d0_1 : S10000x32.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S10000x10128 : S_.BroadcastsInDim S10000x10128 (![] : Fin 0 → Fin S10000x10128.rank)
  reducesTo_S10000x10128_S_d0_1 : S10000x10128.ReducesTo [0, 1] S_
  bcast_S_S10000 : S_.BroadcastsInDim S10000 (![] : Fin 0 → Fin S10000.rank)
  reducesTo_S10000_S_d0 : S10000.ReducesTo [0] S_
  slices_S4096x2_S4096x1_0_0 : S4096x2.Slices ![0, 0] S4096x1
  shapeCasts_S4096x1_S4096 : S4096x1.ShapeCasts S4096
  bcast_S_S4096 : S_.BroadcastsInDim S4096 (![] : Fin 0 → Fin S4096.rank)
  reducesTo_S4096_S_d0 : S4096.ReducesTo [0] S_
  slices_S4096x2_S4096x1_0_1 : S4096x2.Slices ![0, 1] S4096x1

variable [Facts]

def fn_part3 {F : FTy → Type} [FloatOps F] (main_arg0 : IVec S4096x2 32) (main_v49 : IVec S_ 1) (main_v51 : IVec S4096 32) (main_c_17 : IVec S_ 32) : IVec S_ 1 :=
  let main_v52 : IVec S4096 32 := broadcastInDim S4096 ![] bcast_S_S4096 main_c_17
  let main_v53 : IVec S4096 1 := cmpi .sge main_v51 main_v52
  let main_v54 : IVec S4096x1 32 := (extractStridedSlice S4096x1 ![0, 1] · slices_S4096x2_S4096x1_0_1) main_arg0
  let main_v55 : IVec S4096 32 := shapeCast S4096 main_v54 shapeCasts_S4096x1_S4096
  let main_c_18 : IVec S_ 32 := constantI S_ 32 10000#32
  let main_v56 : IVec S4096 32 := broadcastInDim S4096 ![] bcast_S_S4096 main_c_18
  let main_v57 : IVec S4096 1 := cmpi .slt main_v55 main_v56
  let main_v58 : IVec S4096 1 := andi main_v53 main_v57
  let main_c_19 : IVec S_ 1 := constantI S_ 1 1#1
  let main_v59 : IVec S_ 1 := (fun x v => Host.reduce IntOp.andi x v reducesTo_S4096_S_d0 h_S_) main_v58 main_c_19
  let main_v60 : IVec S_ 1 := andi main_v49 main_v59
  main_v60

def fn_part2 {F : FTy → Type} [FloatOps F] (main_arg0 : IVec S4096x2 32) (main_arg8 : FVec F S10000 .f32) (main_v33 : IVec S_ 1) : IVec S_ 1 :=
  let main_v34 : FVec F S10000 .f32 := Host.absf main_arg8
  let main_cst_12 : FVec F S_ .f32 := constant S_ .f32 0x7F800000#32
  let main_v35 : FVec F S10000 .f32 := broadcastInDim S10000 ![] bcast_S_S10000 main_cst_12
  let main_v36 : IVec S10000 1 := cmpf .olt main_v34 main_v35
  let main_c_13 : IVec S_ 1 := constantI S_ 1 1#1
  let main_v37 : IVec S_ 1 := (fun x v => Host.reduce IntOp.andi x v reducesTo_S10000_S_d0 h_S_) main_v36 main_c_13
  let main_v38 : IVec S_ 1 := andi main_v33 main_v37
  let main_v39 : IVec S4096x1 32 := (extractStridedSlice S4096x1 ![0, 0] · slices_S4096x2_S4096x1_0_0) main_arg0
  let main_v40 : IVec S4096 32 := shapeCast S4096 main_v39 shapeCasts_S4096x1_S4096
  let main_c_14 : IVec S_ 32 := constantI S_ 32 0#32
  let main_v41 : IVec S4096 32 := broadcastInDim S4096 ![] bcast_S_S4096 main_c_14
  let main_v42 : IVec S4096 1 := cmpi .sge main_v40 main_v41
  let main_v43 : IVec S4096x1 32 := (extractStridedSlice S4096x1 ![0, 0] · slices_S4096x2_S4096x1_0_0) main_arg0
  let main_v44 : IVec S4096 32 := shapeCast S4096 main_v43 shapeCasts_S4096x1_S4096
  let main_c_15 : IVec S_ 32 := constantI S_ 32 100000#32
  let main_v45 : IVec S4096 32 := broadcastInDim S4096 ![] bcast_S_S4096 main_c_15
  let main_v46 : IVec S4096 1 := cmpi .slt main_v44 main_v45
  let main_v47 : IVec S4096 1 := andi main_v42 main_v46
  let main_c_16 : IVec S_ 1 := constantI S_ 1 1#1
  let main_v48 : IVec S_ 1 := (fun x v => Host.reduce IntOp.andi x v reducesTo_S4096_S_d0 h_S_) main_v47 main_c_16
  let main_v49 : IVec S_ 1 := andi main_v38 main_v48
  let main_v50 : IVec S4096x1 32 := (extractStridedSlice S4096x1 ![0, 1] · slices_S4096x2_S4096x1_0_1) main_arg0
  let main_v51 : IVec S4096 32 := shapeCast S4096 main_v50 shapeCasts_S4096x1_S4096
  let main_c_17 : IVec S_ 32 := constantI S_ 32 0#32
  fn_part3 (F := F) main_arg0 main_v49 main_v51 main_c_17

def fn_part1 {F : FTy → Type} [FloatOps F] (main_arg0 : IVec S4096x2 32) (main_arg5 : FVec F S128x128 .f32) (main_arg6 : FVec F S128 .f32) (main_arg7 : FVec F S10000x10128 .f32) (main_arg8 : FVec F S10000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S10000x10128 .f32 := Host.absf main_arg7
  let main_cst_10 : FVec F S_ .f32 := constant S_ .f32 0x7F800000#32
  let main_v30 : FVec F S10000x10128 .f32 := broadcastInDim S10000x10128 ![] bcast_S_S10000x10128 main_cst_10
  let main_v31 : IVec S10000x10128 1 := cmpf .olt main_v29 main_v30
  let main_c_11 : IVec S_ 1 := constantI S_ 1 1#1
  let main_v32 : IVec S_ 1 := (fun x v => Host.reduce IntOp.andi x v reducesTo_S10000x10128_S_d0_1 h_S_) main_v31 main_c_11
  let main_v33 : IVec S_ 1 := andi main_v28 main_v32
  fn_part2 (F := F) main_arg0 main_arg8 main_v33

def fn {F : FTy → Type} [FloatOps F] (main_arg0 : IVec S4096x2 32) (main_arg1 : FVec F S100000x32 .f32) (main_arg2 : FVec F S10000x32 .f32) (main_arg3 : FVec F S128x64 .f32) (main_arg4 : FVec F S128 .f32) (main_arg5 : FVec F S128x128 .f32) (main_arg6 : FVec F S128 .f32) (main_arg7 : FVec F S10000x10128 .f32) (main_arg8 : FVec F S10000 .f32) : IVec S_ 1 :=
  let main_v0 : FVec F S100000x32 .f32 := Host.absf main_arg1
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S10000x32 .f32 := Host.absf main_arg2
  let main_cst_0 : FVec F S_ .f32 := constant S_ .f32 0x7F800000#32
  let main_v5 : FVec F S10000x32 .f32 := broadcastInDim S10000x32 ![] bcast_S_S10000x32 main_cst_0
  let main_v6 : IVec S10000x32 1 := cmpf .olt main_v4 main_v5
  let main_c_1 : IVec S_ 1 := constantI S_ 1 1#1
  let main_v7 : IVec S_ 1 := (fun x v => Host.reduce IntOp.andi x v reducesTo_S10000x32_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg5 main_arg6 main_arg7 main_arg8 main_v13 main_v16
-- ==== Kernel.lean ====
abbrev S4096x2 : Shape := ⟨2, ![4096, 2]⟩
abbrev S100000x32 : Shape := ⟨2, ![100000, 32]⟩
abbrev S10000x32 : Shape := ⟨2, ![10000, 32]⟩
abbrev S128x64 : Shape := ⟨2, ![128, 64]⟩
abbrev S128 : Shape := ⟨1, ![128]⟩
abbrev S128x128 : Shape := ⟨2, ![128, 128]⟩
abbrev S10000x10128 : Shape := ⟨2, ![10000, 10128]⟩
abbrev S10000 : Shape := ⟨1, ![10000]⟩
abbrev S4096x1 : Shape := ⟨2, ![4096, 1]⟩
abbrev S4096 : Shape := ⟨1, ![4096]⟩
abbrev S_ : Shape := ⟨0, ![]⟩
abbrev S1 : Shape := ⟨1, ![1]⟩
abbrev S1x1 : Shape := ⟨2, ![1, 1]⟩
abbrev S4096x32 : Shape := ⟨2, ![4096, 32]⟩
abbrev S4096x64 : Shape := ⟨2, ![4096, 64]⟩
abbrev S64x128 : Shape := ⟨2, ![64, 128]⟩
abbrev S4096x128 : Shape := ⟨2, ![4096, 128]⟩
abbrev S1x128 : Shape := ⟨2, ![1, 128]⟩
abbrev S10000x10000 : Shape := ⟨2, ![10000, 10000]⟩
abbrev S10000x128 : Shape := ⟨2, ![10000, 128]⟩
abbrev S1x10000 : Shape := ⟨2, ![1, 10000]⟩
abbrev S4096x10000 : Shape := ⟨2, ![4096, 10000]⟩
abbrev S256x1 : Shape := ⟨2, ![256, 1]⟩
abbrev S256x128 : Shape := ⟨2, ![256, 128]⟩
abbrev S384x10000 : Shape := ⟨2, ![384, 10000]⟩
abbrev S384x128 : Shape := ⟨2, ![384, 128]⟩
abbrev S1x384 : Shape := ⟨2, ![1, 384]⟩
abbrev S256x384 : Shape := ⟨2, ![256, 384]⟩
abbrev S256x10000 : Shape := ⟨2, ![256, 10000]⟩

abbrev nBuf : Space → Nat
  | .hbm => 84
  | .vmem => 12
  | .smem => 0
  | _ => 0

abbrev bufTy : (tb : Table) → Fin (tcTables nBuf tb) → BufTy
  | .hbm, ⟨0, _⟩ => ⟨S4096x2, .i32⟩
  | .hbm, ⟨1, _⟩ => ⟨S100000x32, .f32⟩
  | .hbm, ⟨2, _⟩ => ⟨S10000x32, .f32⟩
  | .hbm, ⟨3, _⟩ => ⟨S128x64, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S10000x10128, .f32⟩
  | .hbm, ⟨8, _⟩ => ⟨S10000, .f32⟩
  | .hbm, ⟨9, _⟩ => ⟨S4096x1, .i32⟩
  | .hbm, ⟨10, _⟩ => ⟨S4096, .i32⟩
  | .hbm, ⟨11, _⟩ => ⟨S4096x1, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S1, .i32⟩
  | .hbm, ⟨22, _⟩ => ⟨S_, .i32⟩
  | .hbm, ⟨23, _⟩ => ⟨S4096x1, .i32⟩
  | .hbm, ⟨24, _⟩ => ⟨S4096x1, .i1⟩
  | .hbm, ⟨25, _⟩ => ⟨S1x1, .i32⟩
  | .hbm, ⟨26, _⟩ => ⟨S4096x1, .i32⟩
  | .hbm, ⟨27, _⟩ => ⟨S4096x1, .i1⟩
  | .hbm, ⟨28, _⟩ => ⟨S4096x1, .i1⟩
  | .hbm, ⟨29, _⟩ => ⟨S_, .i1⟩
  | .hbm, ⟨30, _⟩ => ⟨S4096, .i1⟩
  | .hbm, ⟨31, _⟩ => ⟨S4096x32, .f32⟩
  | .hbm, ⟨32, _⟩ => ⟨S4096x32, .i1⟩
  | .hbm, ⟨33, _⟩ => ⟨S_, .f32⟩
  | .hbm, ⟨34, _⟩ => ⟨S4096x32, .f32⟩
  | .hbm, ⟨35, _⟩ => ⟨S4096x32, .f32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S1, .i32⟩
  | .hbm, ⟨45, _⟩ => ⟨S_, .i32⟩
  | .hbm, ⟨46, _⟩ => ⟨S4096x1, .i32⟩
  | .hbm, ⟨47, _⟩ => ⟨S4096x1, .i1⟩
  | .hbm, ⟨48, _⟩ => ⟨S1x1, .i32⟩
  | .hbm, ⟨49, _⟩ => ⟨S4096x1, .i32⟩
  | .hbm, ⟨50, _⟩ => ⟨S4096x1, .i1⟩
  | .hbm, ⟨51, _⟩ => ⟨S4096x1, .i1⟩
  | .hbm, ⟨52, _⟩ => ⟨S_, .i1⟩
  | .hbm, ⟨53, _⟩ => ⟨S4096, .i1⟩
  | .hbm, ⟨54, _⟩ => ⟨S4096x32, .f32⟩
  | .hbm, ⟨55, _⟩ => ⟨S4096x32, .i1⟩
  | .hbm, ⟨56, _⟩ => ⟨S_, .f32⟩
  | .hbm, ⟨57, _⟩ => ⟨S4096x32, .f32⟩
  | .hbm, ⟨58, _⟩ => ⟨S4096x32, .f32⟩
  | .hbm, ⟨59, _⟩ => ⟨S4096x64, .f32⟩
  | .hbm, ⟨60, _⟩ => ⟨S64x128, .f32⟩
  | .hbm, ⟨61, _⟩ => ⟨S4096x128, .f32⟩
  | .hbm, ⟨62, _⟩ => ⟨S1x128, .f32⟩
  | .hbm, ⟨63, _⟩ => ⟨S4096x128, .f32⟩
  | .hbm, ⟨64, _⟩ => ⟨S4096x128, .f32⟩
  | .hbm, ⟨65, _⟩ => ⟨S_, .f32⟩
  | .hbm, ⟨66, _⟩ => ⟨S4096x128, .f32⟩
  | .hbm, ⟨67, _⟩ => ⟨S4096x128, .f32⟩
  | .hbm, ⟨68, _⟩ => ⟨S128x128, .f32⟩
  | .hbm, ⟨69, _⟩ => ⟨S4096x128, .f32⟩
  | .hbm, ⟨70, _⟩ => ⟨S1x128, .f32⟩
  | .hbm, ⟨71, _⟩ => ⟨S4096x128, .f32⟩
  | .hbm, ⟨72, _⟩ => ⟨S4096x128, .f32⟩
  | .hbm, ⟨73, _⟩ => ⟨S_, .f32⟩
  | .hbm, ⟨74, _⟩ => ⟨S4096x128, .f32⟩
  | .hbm, ⟨75, _⟩ => ⟨S4096x128, .f32⟩
  | .hbm, ⟨76, _⟩ => ⟨S10000x10000, .f32⟩
  | .hbm, ⟨77, _⟩ => ⟨S10000x10000, .bf16⟩
  | .hbm, ⟨78, _⟩ => ⟨S10000x128, .f32⟩
  | .hbm, ⟨79, _⟩ => ⟨S10000x128, .bf16⟩
  | .hbm, ⟨80, _⟩ => ⟨S1x10000, .f32⟩
  | .hbm, ⟨81, _⟩ => ⟨S4096x128, .bf16⟩
  | .hbm, ⟨82, _⟩ => ⟨S4096x1, .i32⟩
  | .hbm, ⟨83, _⟩ => ⟨S4096x10000, .f32⟩
  | .local _ .vmem, ⟨0, _⟩ => ⟨S256x1, .i32⟩
  | .local _ .vmem, ⟨1, _⟩ => ⟨S256x1, .i32⟩
  | .local _ .vmem, ⟨2, _⟩ => ⟨S256x128, .bf16⟩
  | .local _ .vmem, ⟨3, _⟩ => ⟨S256x128, .bf16⟩
  | .local _ .vmem, ⟨4, _⟩ => ⟨S384x10000, .bf16⟩
  | .local _ .vmem, ⟨5, _⟩ => ⟨S384x10000, .bf16⟩
  | .local _ .vmem, ⟨6, _⟩ => ⟨S384x128, .bf16⟩
  | .local _ .vmem, ⟨7, _⟩ => ⟨S384x128, .bf16⟩
  | .local _ .vmem, ⟨8, _⟩ => ⟨S1x384, .f32⟩
  | .local _ .vmem, ⟨9, _⟩ => ⟨S1x384, .f32⟩
  | .local _ .vmem, ⟨10, _⟩ => ⟨S256x384, .f32⟩
  | .local _ .vmem, ⟨11, _⟩ => ⟨S256x384, .f32⟩
  | _, _ => ⟨S4096x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_call2_cst : Ref sig .tc := ⟨.hbm, 65, rfl⟩
abbrev main_call2_v0 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_call3_cst : Ref sig .tc := ⟨.hbm, 73, rfl⟩
abbrev main_call3_v0 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![27, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x10000 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S4096x2_S4096x1_0_0 : S4096x2.Slices ![0, 0] S4096x1
  shapeCasts_S4096x1_S4096 : S4096x1.ShapeCasts S4096
  slices_S4096x2_S4096x1_0_1 : S4096x2.Slices ![0, 1] S4096x1
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x32_0 : S4096.BroadcastsInDim S4096x32 (![0] : Fin 1 → Fin S4096x32.rank)
  bcast_S_S4096x32 : S_.BroadcastsInDim S4096x32 (![] : Fin 0 → Fin S4096x32.rank)
  concatenates_S4096x32_S4096x32_S4096x64_d1 : Shape.Concatenates [S4096x32, S4096x32] S4096x64 1
  transposes_S128x64_S64x128_1_0 : S128x64.Transposes [1, 0] S64x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S128x128_S128x128_1_0 : S128x128.Transposes [1, 0] S128x128
  slices_S10000x10128_S10000x10000_0_0 : S10000x10128.Slices ![0, 0] S10000x10000
  bitsLt_bf16_f32 : FTy.bits .bf16 < FTy.bits .f32
  slices_S10000x10128_S10000x128_0_10000 : S10000x10128.Slices ![0, 10000] S10000x128
  shapeCasts_S10000_S1x10000 : S10000.ShapeCasts S1x10000
  shapeCasts_S4096_S4096x1 : S4096.ShapeCasts S4096x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x10000_d1_w32 : S256x10000.Iotas .tc 32 [1]
  broadcasts_S256x1_S256x10000 : S256x1.Broadcasts S256x10000
  natLt_1_32 : 1 < 32
  inb_S384x10000_S384x10000_0_0 : ∀ a, (![0, 0] : Fin 2 → Nat) a + S384x10000.size a ≤ S384x10000.size a
  h_S384x10000 : 0 < S384x10000.numel
  shapeCasts_S384x10000_S384x10000 : S384x10000.ShapeCasts S384x10000
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S256x384 : S1x384.Broadcasts S256x384
  inb_S256x384_S256x384_0_0 : ∀ a, (![0, 0] : Fin 2 → Nat) a + S256x384.size a ≤ S256x384.size a
  h_S256x384 : 0 < S256x384.numel
  gather_S100000x32_S4096x1_S4096x32_1_0_n_n_0_1_132_wf : GatherDims.WF S100000x32 S4096x1 S4096x32 [1] [0] [] [0] [] 1 ![1, 32]
  gather_S10000x32_S4096x1_S4096x32_1_0_n_n_0_1_132_wf : GatherDims.WF S10000x32 S4096x1 S4096x32 [1] [0] [] [0] [] 1 ![1, 32]
  dot_S4096x64_S64x128_S4096x128_1_0_0_1_n_n_wf : DotDims.WF S4096x64 S64x128 S4096x128 [1] [0] [0] [1] [] []
  dot_S4096x128_S128x128_S4096x128_1_0_0_1_n_n_wf : DotDims.WF S4096x128 S128x128 S4096x128 [1] [0] [0] [1] [] []
  dot_S256x10000_S384x10000_S256x384_1_1_0_0_n_n_wf : DotDims.WF S256x10000 S384x10000 S256x384 [1] [1] [0] [0] [] []
  dot_S256x128_S384x128_S256x384_1_1_0_0_n_n_wf : DotDims.WF S256x128 S384x128 S256x384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S4096x1.size a
  hwx0_0 : ∀ i : grid0.Coords, EltTy.bits .i32 = 32 ∨ (Rect.block (s := S4096x1) S256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S4096x128.size a
  hwx0_1 : ∀ i : grid0.Coords, EltTy.bits .bf16 = 32 ∨ (Rect.block (s := S4096x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S384x10000.size a < S10000x10000.size a
  hwx0_2 : ∀ i : grid0.Coords, EltTy.bits .bf16 = 32 ∨ (Rect.unit (s := S10000x10000) (fun a => cc0_transform_2 i a * S384x10000.size a) (fun a => (Pipeline.Clip.of (cc0_transform_2 i a) (S384x10000.size a) (S10000x10000.size a)).extent (S384x10000.size a)) fun a => Pipeline.Clip.inb (Pipeline.Clip.ok_of (hstart0_2 i a))).WholeWords (EltTy.packing .bf16)
  hwxs0_2 : ∀ i : grid0.Coords, EltTy.bits .bf16 = 32 ∨ (Rect.unit (s := S384x10000) (fun _ => 0) (fun a => (Pipeline.Clip.of (cc0_transform_2 i a) (S384x10000.size a) (S10000x10000.size a)).extent (S384x10000.size a)) fun a => (Nat.zero_add _).trans_le (Pipeline.Clip.extent_le (Pipeline.Clip.ok_of (hstart0_2 i a)))).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S384x128.size a < S10000x128.size a
  hwx0_3 : ∀ i : grid0.Coords, EltTy.bits .bf16 = 32 ∨ (Rect.unit (s := S10000x128) (fun a => cc0_transform_3 i a * S384x128.size a) (fun a => (Pipeline.Clip.of (cc0_transform_3 i a) (S384x128.size a) (S10000x128.size a)).extent (S384x128.size a)) fun a => Pipeline.Clip.inb (Pipeline.Clip.ok_of (hstart0_3 i a))).WholeWords (EltTy.packing .bf16)
  hwxs0_3 : ∀ i : grid0.Coords, EltTy.bits .bf16 = 32 ∨ (Rect.unit (s := S384x128) (fun _ => 0) (fun a => (Pipeline.Clip.of (cc0_transform_3 i a) (S384x128.size a) (S10000x128.size a)).extent (S384x128.size a)) fun a => (Nat.zero_add _).trans_le (Pipeline.Clip.extent_le (Pipeline.Clip.ok_of (hstart0_3 i a)))).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x384.size a < S1x10000.size a
  hwx0_4 : ∀ i : grid0.Coords, EltTy.bits .f32 = 32 ∨ (Rect.unit (s := S1x10000) (fun a => cc0_transform_4 i a * S1x384.size a) (fun a => (Pipeline.Clip.of (cc0_transform_4 i a) (S1x384.size a) (S1x10000.size a)).extent (S1x384.size a)) fun a => Pipeline.Clip.inb (Pipeline.Clip.ok_of (hstart0_4 i a))).WholeWords (EltTy.packing .f32)
  hwxs0_4 : ∀ i : grid0.Coords, EltTy.bits .f32 = 32 ∨ (Rect.unit (s := S1x384) (fun _ => 0) (fun a => (Pipeline.Clip.of (cc0_transform_4 i a) (S1x384.size a) (S1x10000.size a)).extent (S1x384.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S256x384.size a < S4096x10000.size a
  hwx0_5 : ∀ i : grid0.Coords, EltTy.bits .f32 = 32 ∨ (Rect.unit (s := S4096x10000) (fun a => cc0_transform_5 i a * S256x384.size a) (fun a => (Pipeline.Clip.of (cc0_transform_5 i a) (S256x384.size a) (S4096x10000.size a)).extent (S256x384.size a)) fun a => Pipeline.Clip.inb (Pipeline.Clip.ok_of (hstart0_5 i a))).WholeWords (EltTy.packing .f32)
  hwxs0_5 : ∀ i : grid0.Coords, EltTy.bits .f32 = 32 ∨ (Rect.unit (s := S256x384) (fun _ => 0) (fun a => (Pipeline.Clip.of (cc0_transform_5 i a) (S256x384.size a) (S4096x10000.size a)).extent (S256x384.size a)) fun a => (Nat.zero_add _).trans_le (Pipeline.Clip.extent_le (Pipeline.Clip.ok_of (hstart0_5 i a)))).WholeWords (EltTy.packing .f32)

variable [Facts₀]

def gather_S100000x32_S4096x1_S4096x32_1_0_n_n_0_1_132 : GatherDims S100000x32 S4096x1 S4096x32 where
  offsetDims := [1]
  collapsedSliceDims := [0]
  operandBatchingDims := []
  startIndicesBatchingDims := []
  startIndexMap := [0]
  indexVectorDim := 1
  sliceSizes := ![1, 32]
  wf := gather_S100000x32_S4096x1_S4096x32_1_0_n_n_0_1_132_wf
def gather_S10000x32_S4096x1_S4096x32_1_0_n_n_0_1_132 : GatherDims S10000x32 S4096x1 S4096x32 where
  offsetDims := [1]
  collapsedSliceDims := [0]
  operandBatchingDims := []
  startIndicesBatchingDims := []
  startIndexMap := [0]
  indexVectorDim := 1
  sliceSizes := ![1, 32]
  wf := gather_S10000x32_S4096x1_S4096x32_1_0_n_n_0_1_132_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S256x10000_S384x10000_S256x384_1_1_0_0_n_n : DotDims S256x10000 S384x10000 S256x384 where
  lhsContracting := [1]
  rhsContracting := [1]
  lhsNonContracting := [0]
  rhsNonContracting := [0]
  lhsBatch := []
  rhsBatch := []
  wf := dot_S256x10000_S384x10000_S256x384_1_1_0_0_n_n_wf
def dot_S256x128_S384x128_S256x384_1_1_0_0_n_n : DotDims S256x128 S384x128 S256x384 where
  lhsContracting := [1]
  rhsContracting := [1]
  lhsNonContracting := [0]
  rhsNonContracting := [0]
  lhsBatch := []
  rhsBatch := []
  wf := dot_S256x128_S384x128_S256x384_1_1_0_0_n_n_wf

abbrev win0_0 : Pipeline.Window sig grid0 :=
  Pipeline.Window.ofSpec (Memref.whole main_v25) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v20) S384x10000.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v22) S384x128.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v23) S1x384.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v26) S256x384.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x2 : Shape := ⟨2, ![4096, 2]⟩
abbrev S100000x32 : Shape := ⟨2, ![100000, 32]⟩
abbrev S10000x32 : Shape := ⟨2, ![10000, 32]⟩
abbrev S128x64 : Shape := ⟨2, ![128, 64]⟩
abbrev S128 : Shape := ⟨1, ![128]⟩
abbrev S128x128 : Shape := ⟨2, ![128, 128]⟩
abbrev S10000x10128 : Shape := ⟨2, ![10000, 10128]⟩
abbrev S10000 : Shape := ⟨1, ![10000]⟩
abbrev S4096x1 : Shape := ⟨2, ![4096, 1]⟩
abbrev S4096 : Shape := ⟨1, ![4096]⟩
abbrev S_ : Shape := ⟨0, ![]⟩
abbrev S4096x32 : Shape := ⟨2, ![4096, 32]⟩
abbrev S4096x64 : Shape := ⟨2, ![4096, 64]⟩
abbrev S64x128 : Shape := ⟨2, ![64, 128]⟩
abbrev S4096x128 : Shape := ⟨2, ![4096, 128]⟩
abbrev S1x128 : Shape := ⟨2, ![1, 128]⟩
abbrev S1x10000 : Shape := ⟨2, ![1, 10000]⟩
abbrev S4096x10000 : Shape := ⟨2, ![4096, 10000]⟩
abbrev S4096x10128 : Shape := ⟨2, ![4096, 10128]⟩
abbrev S10128x10000 : Shape := ⟨2, ![10128, 10000]⟩

abbrev nBuf : Space → Nat
  | .hbm => 68
  | .vmem => 0
  | .smem => 0
  | _ => 0

abbrev bufTy : (tb : Table) → Fin (tcTables nBuf tb) → BufTy
  | .hbm, ⟨0, _⟩ => ⟨S4096x2, .i32⟩
  | .hbm, ⟨1, _⟩ => ⟨S100000x32, .f32⟩
  | .hbm, ⟨2, _⟩ => ⟨S10000x32, .f32⟩
  | .hbm, ⟨3, _⟩ => ⟨S128x64, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S10000x10128, .f32⟩
  | .hbm, ⟨8, _⟩ => ⟨S10000, .f32⟩
  | .hbm, ⟨9, _⟩ => ⟨S4096x1, .i32⟩
  | .hbm, ⟨10, _⟩ => ⟨S4096, .i32⟩
  | .hbm, ⟨11, _⟩ => ⟨S4096x1, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S4096x32, .f32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096x32, .f32⟩
  | .hbm, ⟨31, _⟩ => ⟨S4096x64, .f32⟩
  | .hbm, ⟨32, _⟩ => ⟨S64x128, .f32⟩
  | .hbm, ⟨33, _⟩ => ⟨S4096x128, .f32⟩
  | .hbm, ⟨34, _⟩ => ⟨S1x128, .f32⟩
  | .hbm, ⟨35, _⟩ => ⟨S4096x128, .f32⟩
  | .hbm, ⟨36, _⟩ => ⟨S4096x128, .f32⟩
  | .hbm, ⟨37, _⟩ => ⟨S_, .f32⟩
  | .hbm, ⟨38, _⟩ => ⟨S4096x128, .f32⟩
  | .hbm, ⟨39, _⟩ => ⟨S4096x128, .f32⟩
  | .hbm, ⟨40, _⟩ => ⟨S128x128, .f32⟩
  | .hbm, ⟨41, _⟩ => ⟨S4096x128, .f32⟩
  | .hbm, ⟨42, _⟩ => ⟨S1x128, .f32⟩
  | .hbm, ⟨43, _⟩ => ⟨S4096x128, .f32⟩
  | .hbm, ⟨44, _⟩ => ⟨S4096x128, .f32⟩
  | .hbm, ⟨45, _⟩ => ⟨S_, .f32⟩
  | .hbm, ⟨46, _⟩ => ⟨S4096x128, .f32⟩
  | .hbm, ⟨47, _⟩ => ⟨S4096x128, .f32⟩
  | .hbm, ⟨48, _⟩ => ⟨S4096x1, .i32⟩
  | .hbm, ⟨49, _⟩ => ⟨S1x10000, .i32⟩
  | .hbm, ⟨50, _⟩ => ⟨S4096x10000, .i32⟩
  | .hbm, ⟨51, _⟩ => ⟨S4096x10000, .i32⟩
  | .hbm, ⟨52, _⟩ => ⟨S4096x10000, .i1⟩
  | .hbm, ⟨53, _⟩ => ⟨S4096x10000, .f32⟩
  | .hbm, ⟨54, _⟩ => ⟨S4096x10128, .f32⟩
  | .hbm, ⟨55, _⟩ => ⟨S10128x10000, .f32⟩
  | .hbm, ⟨56, _⟩ => ⟨S4096x10000, .f32⟩
  | .hbm, ⟨57, _⟩ => ⟨S1x10000, .f32⟩
  | .hbm, ⟨58, _⟩ => ⟨S4096x10000, .f32⟩
  | .hbm, ⟨59, _⟩ => ⟨S4096x10000, .f32⟩
  | .hbm, ⟨60, _⟩ => ⟨S4096x10000, .f32⟩
  | .hbm, ⟨61, _⟩ => ⟨S4096x10000, .f32⟩
  | .hbm, ⟨62, _⟩ => ⟨S_, .f32⟩
  | .hbm, ⟨63, _⟩ => ⟨S4096x10000, .f32⟩
  | .hbm, ⟨64, _⟩ => ⟨S4096x10000, .f32⟩
  | .hbm, ⟨65, _⟩ => ⟨S_, .f32⟩
  | .hbm, ⟨66, _⟩ => ⟨S4096x10000, .f32⟩
  | .hbm, ⟨67, _⟩ => ⟨S4096x10000, .f32⟩
  | _, _ => ⟨S4096x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call1_cst : Ref sig .tc := ⟨.hbm, 45, rfl⟩
abbrev main_call1_v0 : Ref sig .tc := ⟨.hbm, 46, rfl⟩
abbrev main_v30 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]

class Facts₀ : Prop where
  slices_S4096x2_S4096x1_0_0 : S4096x2.Slices ![0, 0] S4096x1
  shapeCasts_S4096x1_S4096 : S4096x1.ShapeCasts S4096
  slices_S4096x2_S4096x1_0_1 : S4096x2.Slices ![0, 1] S4096x1
  bcast_S_S4096 : S_.BroadcastsInDim S4096 (![] : Fin 0 → Fin S4096.rank)
  bcast_S4096_S4096x1_0 : S4096.BroadcastsInDim S4096x1 (![0] : Fin 1 → Fin S4096x1.rank)
  concatenates_S4096x32_S4096x32_S4096x64_d1 : Shape.Concatenates [S4096x32, S4096x32] S4096x64 1
  transposes_S128x64_S64x128_1_0 : S128x64.Transposes [1, 0] S64x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S128x128_S128x128_1_0 : S128x128.Transposes [1, 0] S128x128
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  concatenates_S4096x10000_S4096x128_S4096x10128_d1 : Shape.Concatenates [S4096x10000, S4096x128] S4096x10128 1
  transposes_S10000x10128_S10128x10000_1_0 : S10000x10128.Transposes [1, 0] S10128x10000
  bcast_S10000_S1x10000_1 : S10000.BroadcastsInDim S1x10000 (![1] : Fin 1 → Fin S1x10000.rank)
  bcast_S_S4096x10000 : S_.BroadcastsInDim S4096x10000 (![] : Fin 0 → Fin S4096x10000.rank)
  gather_S100000x32_S4096x1_S4096x32_1_0_n_n_0_1_132_wf : GatherDims.WF S100000x32 S4096x1 S4096x32 [1] [0] [] [0] [] 1 ![1, 32]
  gather_S10000x32_S4096x1_S4096x32_1_0_n_n_0_1_132_wf : GatherDims.WF S10000x32 S4096x1 S4096x32 [1] [0] [] [0] [] 1 ![1, 32]
  dot_S4096x64_S64x128_S4096x128_1_0_0_1_n_n_wf : DotDims.WF S4096x64 S64x128 S4096x128 [1] [0] [0] [1] [] []
  dot_S4096x128_S128x128_S4096x128_1_0_0_1_n_n_wf : DotDims.WF S4096x128 S128x128 S4096x128 [1] [0] [0] [1] [] []
  dot_S4096x10128_S10128x10000_S4096x10000_1_0_0_1_n_n_wf : DotDims.WF S4096x10128 S10128x10000 S4096x10000 [1] [0] [0] [1] [] []

variable [Facts₀]

def gather_S100000x32_S4096x1_S4096x32_1_0_n_n_0_1_132 : GatherDims S100000x32 S4096x1 S4096x32 where
  offsetDims := [1]
  collapsedSliceDims := [0]
  operandBatchingDims := []
  startIndicesBatchingDims := []
  startIndexMap := [0]
  indexVectorDim := 1
  sliceSizes := ![1, 32]
  wf := gather_S100000x32_S4096x1_S4096x32_1_0_n_n_0_1_132_wf
def gather_S10000x32_S4096x1_S4096x32_1_0_n_n_0_1_132 : GatherDims S10000x32 S4096x1 S4096x32 where
  offsetDims := [1]
  collapsedSliceDims := [0]
  operandBatchingDims := []
  startIndicesBatchingDims := []
  startIndexMap := [0]
  indexVectorDim := 1
  sliceSizes := ![1, 32]
  wf := gather_S10000x32_S4096x1_S4096x32_1_0_n_n_0_1_132_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x10128_S10128x10000_S4096x10000_1_0_0_1_n_n : DotDims S4096x10128 S10128x10000 S4096x10000 where
  lhsContracting := [1]
  rhsContracting := [0]
  lhsNonContracting := [0]
  rhsNonContracting := [1]
  lhsBatch := []
  rhsBatch := []
  wf := dot_S4096x10128_S10128x10000_S4096x10000_1_0_0_1_n_n_wf

class Facts : Prop extends Facts₀ where

variable [Facts]
-- ==== Proof.LibClip.lean ====
/-
  Clipped windows: a window whose last block overhangs its array has transfers that move only the
  block's part inside the array, and its staging buffer is described only on that part. This file
  proves that for an input window whose body leaves the block in place, the part of the staging
  buffer inside the array always holds the array's block — freshly fetched, or kept from the point
  before when the block index and the cut did not change.
-/
import Idealize.ShloMosaic.Lib.Pipeline.Dat
import Idealize.ShloMosaic.Lib.Pipeline.Value

noncomputable section

namespace Idealize.ShloMosaic

open Idealize.SL
open Idealize.SL.RA

namespace Pipeline

open TcCoe

variable {nD : Nat} {τ : Topo} {sig : RefSig} {Val : EltTy → Type} {Λ₀ : SL.Sem.Labels}
variable {Ix : Type} [DecidableEq Ix] {Name : Type} [DecidableEq Name] {U : Type} [URA U] {Lvl : Type}
variable {cfg : Cfg sig Λ₀} {c : Dev nD} (dat : Dat τ Val Ix Name U Lvl cfg c)

namespace Dat

/-- On the part of its block that lies inside the array, the staging buffer of an input window
    always holds the array's block when the body runs.

    Hypotheses, for one window `w`: it is never written back (`hflush`) and no point is idle for it
    (`hidle`); it is fetched at the first point (`hfetch0`); at every later point where it is not
    fetched, the block index and the sizes of the moved part are those of the point before
    (`hsame`); and what the body leaves, restricted to the moved part, is the array's block there
    (`hkeep`). Conclusion: at every point `t`, whatever `d` an unfilled buffer holds, the moved part
    of what the body finds (`before w t d`) is the array's block at `t`. -/
theorem cut_before_eq_blockOf (w : Fin cfg.W)
    (hflush : ∀ t : Fin cfg.N, (cfg.win w).flush t = false)
    (hidle : ∀ i, cfg.idle w i = false)
    (hfetch0 : ∀ t : Fin cfg.N, t.val = 0 → (cfg.win w).fetch t = true)
    (hsame : ∀ t : Fin cfg.N, (cfg.win w).fetch t = false → ∀ h : t.val ≠ 0,
      (∀ a, (cfg.win w).index t a = (cfg.win w).index ⟨t.val - 1, Nat.lt_of_le_of_lt (Nat.sub_le _ _) t.isLt⟩ a) ∧
      (∀ a, (cfg.win w).xsize (cfg.grid.coords t) a = (cfg.win w).xsize (cfg.grid.coords ⟨t.val - 1, Nat.lt_of_le_of_lt (Nat.sub_le _ _) t.isLt⟩) a))
    (hkeep : ∀ t : Fin cfg.N, (cfg.win w).cut (cfg.grid.coords t) (dat.after w t) = dat.blockOf w t)
    (t : Fin cfg.N) (d : (cfg.win w).block.Idx → Val (cfg.win w).elt) :
    (cfg.win w).cut (cfg.grid.coords t) (dat.before w t d) = dat.blockOf w t := by
  by_cases hf : (cfg.win w).fetch t = true
  · -- Fetched at `t`: the buffer's moved part was just filled with the block.
    unfold Dat.before
    rw [if_pos hf]
    exact dat.cut_fetched w t d
  · -- Not fetched: `t` is not the first point, and the buffer is what the body left at `t - 1`.
    rw [Bool.not_eq_true] at hf
    have ht : t.val ≠ 0 := fun e => by rw [hfetch0 t e] at hf; exact Bool.noConfusion hf
    obtain ⟨hix, hxs⟩ := hsame t hf ht
    rw [dat.before_of_pos w t ht hf d, hflush, if_neg Bool.false_ne_true]
    unfold Dat.left
    rw [hidle]
    -- The previous point `t'`.
    generalize (⟨t.val - 1, Nat.lt_of_le_of_lt (Nat.sub_le _ _) t.isLt⟩ : Fin cfg.N) = t' at hix hxs ⊢
    show (cfg.win w).cut (cfg.grid.coords t) (dat.kept w t' d) = dat.blockOf w t
    unfold Dat.kept
    rw [hkeep t']
    -- Elementwise: a coordinate `j` of the part moved at `t` is also moved at `t'` (same cut sizes), so the
    -- buffer holds there the element of the block at `t'` with the same coordinates, which sits at the same
    -- place of the array as the block at `t`'s (same block index).
    funext j
    have hm : (cfg.win w).moved (cfg.grid.coords t') ((cfg.win w).xinj (cfg.grid.coords t) j) = true :=
      ((cfg.win w).moved_iff _ _).mpr fun a => by
        show (j a).val < (cfg.win w).xsize (cfg.grid.coords t') a
        rw [← hxs a]; exact (j a).isLt
    show (cfg.win w).fill (cfg.grid.coords t') d (dat.blockOf w t') ((cfg.win w).xinj (cfg.grid.coords t) j) = dat.blockOf w t j
    unfold Window.fill
    rw [dif_pos hm]
    unfold Dat.blockOf
    rw [View.read_apply, View.read_apply]
    -- Both sides read the array's contents; it remains to see that they read them at the same place.
    have he : ∀ y : ((cfg.win w).xblock (cfg.grid.coords t')).Idx, (∀ a, (y a).val = (j a).val) →
        ((cfg.win w).rect t').emb y = ((cfg.win w).rect t).emb j := by
      intro y hy
      funext a
      apply Fin.ext
      rw [Window.rect_emb_val, Window.rect_emb_val, hix a, hy a]
    show _root_.cast _ (dat.A w ((cfg.win w).arr.view.emb (((cfg.win w).rect t').emb _)))
      = _root_.cast _ (dat.A w ((cfg.win w).arr.view.emb (((cfg.win w).rect t).emb j)))
    rw [he _ fun _ => rfl]

end Dat

end Pipeline

end Idealize.ShloMosaic

end
-- ==== Proof.ClipFactsB.lean ====
/-
  Facts about this kernel's 27 × 16 grid for its three clipped input windows (2, 3 and 4), each decided
  over the 432 grid points: the block index of such a window depends only on the outer grid coordinate, so
  the window is fetched when the outer coordinate changes (every 16th point) and otherwise has the block
  index — hence the same cut at the array's end — that it had at the point before.
-/
import proofs.«412227_j71700184039630_1_alg».proof.Proof.Gen.Kernel.Points

set_option Elab.async false

noncomputable section

namespace Cert.Kernel.ClipFacts

open Cert.Kernel Cert.Kernel.Gen
open Idealize.ShloMosaic Idealize.ShloMosaic.TcCoe

/-- Window 2 (operand 2) is never written back. -/
theorem noflush0_2 : ∀ t : Fin cfg0.N, (cfg0.win 2).flush t = false :=
  (by decide +kernel : ∀ t : Fin grid0.N, win0_2.flush t = false)

/-- Window 2 is fetched at the first point. -/
theorem fetch_zero0_2 : ∀ t : Fin cfg0.N, t.val = 0 → (cfg0.win 2).fetch t = true :=
  (by decide +kernel : ∀ t : Fin grid0.N, t.val = 0 → win0_2.fetch t = true)

/-- No point is idle for window 2. -/
theorem noidle0_2 : ∀ i, cfg0.idle 2 i = false := fun _ => rfl

/-- At a point after the first where window 2 is not fetched, its block index and the sizes of the
    part of the block inside the array are those of the point before. -/
theorem keep0_2 : ∀ t : Fin cfg0.N, (cfg0.win 2).fetch t = false → ∀ h : t.val ≠ 0,
    (∀ a, (cfg0.win 2).index t a = (cfg0.win 2).index ⟨t.val - 1, Nat.lt_of_le_of_lt (Nat.sub_le _ _) t.isLt⟩ a) ∧
    (∀ a, (cfg0.win 2).xsize (cfg0.grid.coords t) a
      = (cfg0.win 2).xsize (cfg0.grid.coords ⟨t.val - 1, Nat.lt_of_le_of_lt (Nat.sub_le _ _) t.isLt⟩) a) :=
  (by decide +kernel : ∀ t : Fin grid0.N, win0_2.fetch t = false → ∀ h : t.val ≠ 0,
    (∀ a, win0_2.index t a = win0_2.index ⟨t.val - 1, Nat.lt_of_le_of_lt (Nat.sub_le _ _) t.isLt⟩ a) ∧
    (∀ a, win0_2.xsize (grid0.coords t) a
      = win0_2.xsize (grid0.coords ⟨t.val - 1, Nat.lt_of_le_of_lt (Nat.sub_le _ _) t.isLt⟩) a))

/-- Window 3 (operand 3) is never written back. -/
theorem noflush0_3 : ∀ t : Fin cfg0.N, (cfg0.win 3).flush t = false :=
  (by decide +kernel : ∀ t : Fin grid0.N, win0_3.flush t = false)

/-- Window 3 is fetched at the first point. -/
theorem fetch_zero0_3 : ∀ t : Fin cfg0.N, t.val = 0 → (cfg0.win 3).fetch t = true :=
  (by decide +kernel : ∀ t : Fin grid0.N, t.val = 0 → win0_3.fetch t = true)

/-- No point is idle for window 3. -/
theorem noidle0_3 : ∀ i, cfg0.idle 3 i = false := fun _ => rfl

/-- At a point after the first where window 3 is not fetched, its block index and the sizes of the
    part of the block inside the array are those of the point before. -/
theorem keep0_3 : ∀ t : Fin cfg0.N, (cfg0.win 3).fetch t = false → ∀ h : t.val ≠ 0,
    (∀ a, (cfg0.win 3).index t a = (cfg0.win 3).index ⟨t.val - 1, Nat.lt_of_le_of_lt (Nat.sub_le _ _) t.isLt⟩ a) ∧
    (∀ a, (cfg0.win 3).xsize (cfg0.grid.coords t) a
      = (cfg0.win 3).xsize (cfg0.grid.coords ⟨t.val - 1, Nat.lt_of_le_of_lt (Nat.sub_le _ _) t.isLt⟩) a) :=
  (by decide +kernel : ∀ t : Fin grid0.N, win0_3.fetch t = false → ∀ h : t.val ≠ 0,
    (∀ a, win0_3.index t a = win0_3.index ⟨t.val - 1, Nat.lt_of_le_of_lt (Nat.sub_le _ _) t.isLt⟩ a) ∧
    (∀ a, win0_3.xsize (grid0.coords t) a
      = win0_3.xsize (grid0.coords ⟨t.val - 1, Nat.lt_of_le_of_lt (Nat.sub_le _ _) t.isLt⟩) a))

/-- Window 4 (operand 4) is never written back. -/
theorem noflush0_4 : ∀ t : Fin cfg0.N, (cfg0.win 4).flush t = false :=
  (by decide +kernel : ∀ t : Fin grid0.N, win0_4.flush t = false)

/-- Window 4 is fetched at the first point. -/
theorem fetch_zero0_4 : ∀ t : Fin cfg0.N, t.val = 0 → (cfg0.win 4).fetch t = true :=
  (by decide +kernel : ∀ t : Fin grid0.N, t.val = 0 → win0_4.fetch t = true)

/-- No point is idle for window 4. -/
theorem noidle0_4 : ∀ i, cfg0.idle 4 i = false := fun _ => rfl

/-- At a point after the first where window 4 is not fetched, its block index and the sizes of the
    part of the block inside the array are those of the point before. -/
theorem keep0_4 : ∀ t : Fin cfg0.N, (cfg0.win 4).fetch t = false → ∀ h : t.val ≠ 0,
    (∀ a, (cfg0.win 4).index t a = (cfg0.win 4).index ⟨t.val - 1, Nat.lt_of_le_of_lt (Nat.sub_le _ _) t.isLt⟩ a) ∧
    (∀ a, (cfg0.win 4).xsize (cfg0.grid.coords t) a
      = (cfg0.win 4).xsize (cfg0.grid.coords ⟨t.val - 1, Nat.lt_of_le_of_lt (Nat.sub_le _ _) t.isLt⟩) a) :=
  (by decide +kernel : ∀ t : Fin grid0.N, win0_4.fetch t = false → ∀ h : t.val ≠ 0,
    (∀ a, win0_4.index t a = win0_4.index ⟨t.val - 1, Nat.lt_of_le_of_lt (Nat.sub_le _ _) t.isLt⟩ a) ∧
    (∀ a, win0_4.xsize (grid0.coords t) a
      = win0_4.xsize (grid0.coords ⟨t.val - 1, Nat.lt_of_le_of_lt (Nat.sub_le _ _) t.isLt⟩) a))

end Cert.Kernel.ClipFacts

end
-- ==== Proof.BodyB.lean ====
/-
  The kernel body's triple and the proof data of the one pipeline, at any float instance.

  The body loads its five input buffers whole, computes one value from them and stores it whole into the output
  buffer; so after the body the inputs' buffers hold what they held and the output's holds that value.
  Windows 2, 3, 4 (the two weight blocks and the bias block) and the output window 5 overhang their arrays at the
  last block along the output units: there only the part of a buffer inside the array is ever named.
-/
import proofs.«412227_j71700184039630_1_alg».proof.Proof.Gen.Kernel.Frame
import proofs.«412227_j71700184039630_1_alg».proof.Proof.Gen.Kernel.Skeleton
import Idealize.ShloMosaic.Lib.Pipeline.Value
import proofs.«412227_j71700184039630_1_alg».proof.Proof.LibClip
import proofs.«412227_j71700184039630_1_alg».proof.Proof.ClipFactsB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole output buffer as one rectangle. -/
abbrev rOut : Rect S256x384 := Rect.unit (s := S256x384) ![0, 0] S256x384.size inb_S256x384_S256x384_0_0

/-- The one store covers the output buffer. -/
theorem coverOut (p0 : Vec F S256x384 .f32) (y : S256x384.Idx) :
    ∃ pc ∈ ([⟨rOut, p0⟩] : List (View.Piece (Elt F) S256x384 .f32)), y ∈ pc.1.set :=
  View.cover_of_tiled [⟨rOut, p0⟩] S256x384.size (by rfl) y

/-- The whole input buffers as rectangles. -/
abbrev r0 : Rect S256x1 := Rect.unit (s := S256x1) ![0, 0] S256x1.size inb_S256x1_S256x1_0_0
abbrev r1 : Rect S256x128 := Rect.unit (s := S256x128) ![0, 0] S256x128.size inb_S256x128_S256x128_0_0
abbrev r2 : Rect S384x10000 := Rect.unit (s := S384x10000) ![0, 0] S384x10000.size inb_S384x10000_S384x10000_0_0
abbrev r3 : Rect S384x128 := Rect.unit (s := S384x128) ![0, 0] S384x128.size inb_S384x128_S384x128_0_0
abbrev r4 : Rect S1x384 := Rect.unit (s := S1x384) ![0, 0] S1x384.size inb_S1x384_S1x384_0_0

/-- What the output buffer holds after the body, from the input buffers' contents: its one store as a piece. -/
def out5 (x0 : Vec F S256x1 .i32) (x1 : Vec F S256x128 .bf16) (x2 : Vec F S384x10000 .bf16) (x3 : Vec F S384x128 .bf16)
    (x4 : Vec F S1x384 .f32) : Vec F S256x384 .f32 :=
  View.canon [⟨rOut, k0_pay1 (View.ld x0 r0) (View.ld x2 r2) (View.ld x1 r1) (View.ld x3 r3) (View.ld x4 r4)⟩]

/-- Every access is the whole buffer, so that piece is the body's value of the whole input contents. -/
theorem out5_eq (x0 : Vec F S256x1 .i32) (x1 : Vec F S256x128 .bf16) (x2 : Vec F S384x10000 .bf16) (x3 : Vec F S384x128 .bf16)
    (x4 : Vec F S1x384 .f32) : out5 x0 x1 x2 x3 x4 = k0_pay1 x0 x2 x1 x3 x4 := by
  have hz : (![0, 0] : Fin 2 → Nat) = fun _ => 0 := funext fun a => by fin_cases a <;> rfl
  unfold out5
  rw [View.canon_unit_zero hz]
  simp only [View.ld_unit_zero (S := S256x1) hz, View.ld_unit_zero (S := S256x128) hz, View.ld_unit_zero (S := S384x10000) hz,
    View.ld_unit_zero (S := S384x128) hz, View.ld_unit_zero (S := S1x384) hz]

set_option maxHeartbeats 1000000 in
/-- The body on whole staging buffers: the five inputs at contents x0 … x4 and the output's at anything; it ends
    with the inputs as they were and the output's buffer at the body's value of the inputs. -/
theorem sound_kernel (c : Dev nD) (E : Set ℕ) (i : grid0.Coords)
    (arg2 : Memref sig .tc .vmem S256x1 .i32) (harg2 : arg2.IsWhole) (arg3 : Memref sig .tc .vmem S256x128 .bf16) (harg3 : arg3.IsWhole)
    (arg4 : Memref sig .tc .vmem S384x10000 .bf16) (harg4 : arg4.IsWhole) (arg5 : Memref sig .tc .vmem S384x128 .bf16) (harg5 : arg5.IsWhole)
    (arg6 : Memref sig .tc .vmem S1x384 .f32) (harg6 : arg6.IsWhole) (arg7 : Memref sig .tc .vmem S256x384 .f32) (harg7 : arg7.IsWhole)
    (x0 : Vec F S256x1 .i32) (x1 : Vec F S256x128 .bf16) (x2 : Vec F S384x10000 .bf16) (x3 : Vec F S384x128 .bf16) (x4 : Vec F S1x384 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out5 x0 x1 x2 x3 x4)) -∗ K ⟨⟩))
      ⊢ wp frame (wpE (defs₀ (F := F)) Variants.none c none) E
          (cc0__wide_deep_kernel i arg2 harg2 arg3 harg3 arg4 harg4 arg5 harg5 arg6 harg6 arg7 harg7) K := by
  simp only [cc0__wide_deep_kernel_eq_skeleton]; unfold cc0__wide_deep_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverOut _)

/-! ## The proof data -/

variable (m : (ℓ : Loc nD τ sig) → Buf (Elt F) ℓ) (ρ : Dev nD → PrngReg)

/-- The output window is the one forgotten when only the frame is claimed. -/
abbrev forget5 : Fin 6 → Bool := fun | 0 => false | 1 => false | 2 => false | 3 => false | 4 => false | 5 => true | ⟨_ + 6, h⟩ => absurd h (Nat.not_lt.2 (Nat.le_add_left _ _))

/-- The proof data of the one pipeline on core c. The arrays are as the region finds them. After the body the two
    row-tiled inputs' buffers hold their blocks; the three inputs tiled along the output units hold their blocks on
    the part inside the array (filled out with a word nothing reads); the output's buffer holds `o5 c t`, a
    parameter: the value claim names it, the frame claim forgets it. -/
def dats (o5 : Dev nD → Fin cfg0.N → S256x384.Idx → Elt F .f32) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (cfg0.win 2).fill (cfg0.grid.coords t) (fun _ => Scalar.ofBits .bf16 0#16) (iblk m c 2 t)
    | ⟨3, _⟩ => (cfg0.win 3).fill (cfg0.grid.coords t) (fun _ => Scalar.ofBits .bf16 0#16) (iblk m c 3 t)
    | ⟨4, _⟩ => (cfg0.win 4).fill (cfg0.grid.coords t) (fun _ => Scalar.ofBits .f32 0#32) (iblk m c 4 t)
    | ⟨5, _⟩ => o5 c t
  Φ _ := Pipeline.ΦA spec0 c
  q _ := fullShare
  owed _ := 0

variable (o5 : Dev nD → Fin cfg0.N → S256x384.Idx → Elt F .f32)

theorem A_eq (c : Dev nD) (w : Fin cfg0.W) : (dats m o5 0 c).A w = V m c (Pipeline.arrRef spec0 w) := by
  dsimp only [dats]

theorem after0_0 (c : Dev nD) (t : Fin cfg0.N) : (dats m o5 0 c).after 0 t = iblk m c 0 t := by dsimp only [dats]
theorem after0_1 (c : Dev nD) (t : Fin cfg0.N) : (dats m o5 0 c).after 1 t = iblk m c 1 t := by dsimp only [dats]
theorem after0_2 (c : Dev nD) (t : Fin cfg0.N) : (dats m o5 0 c).after 2 t
    = (cfg0.win 2).fill (cfg0.grid.coords t) (fun _ => Scalar.ofBits .bf16 0#16) (iblk m c 2 t) := by dsimp only [dats]
theorem after0_3 (c : Dev nD) (t : Fin cfg0.N) : (dats m o5 0 c).after 3 t
    = (cfg0.win 3).fill (cfg0.grid.coords t) (fun _ => Scalar.ofBits .bf16 0#16) (iblk m c 3 t) := by dsimp only [dats]
theorem after0_4 (c : Dev nD) (t : Fin cfg0.N) : (dats m o5 0 c).after 4 t
    = (cfg0.win 4).fill (cfg0.grid.coords t) (fun _ => Scalar.ofBits .f32 0#32) (iblk m c 4 t) := by dsimp only [dats]
theorem after0_5 (c : Dev nD) (t : Fin cfg0.N) : (dats m o5 0 c).after 5 t = o5 c t := by dsimp only [dats]

/-- The row-tiled inputs' buffers hold their blocks at every point. -/
theorem before0_0 (c : Dev nD) (t : Fin cfg0.N) (d) : (dats m o5 0 c).before 0 t d = iblk m c 0 t :=
  before0_0_of m (dats m o5 0 c) (A_eq m o5 c 0) (after0_0 m o5 c) t d
theorem before0_1 (c : Dev nD) (t : Fin cfg0.N) (d) : (dats m o5 0 c).before 1 t d = iblk m c 1 t :=
  before0_1_of m (dats m o5 0 c) (A_eq m o5 c 1) (after0_1 m o5 c) t d

/-- What the fetch of a window reads is its block of the array as the region found it. -/
theorem blockOf_eq (c : Dev nD) (w : Fin cfg0.W) (t : Fin cfg0.N) : (dats m o5 0 c).blockOf w t = iblk m c w t := by
  unfold Dat.blockOf iblk; rw [A_eq]

/-- On the part inside the array, what the body leaves in the three inputs tiled along the output units is their block. -/
theorem cut_after0_2 (c : Dev nD) (t : Fin cfg0.N) :
    (cfg0.win 2).cut (cfg0.grid.coords t) ((dats m o5 0 c).after 2 t) = (dats m o5 0 c).blockOf 2 t := by
  rw [after0_2, Window.cut_fill, blockOf_eq]
theorem cut_after0_3 (c : Dev nD) (t : Fin cfg0.N) :
    (cfg0.win 3).cut (cfg0.grid.coords t) ((dats m o5 0 c).after 3 t) = (dats m o5 0 c).blockOf 3 t := by
  rw [after0_3, Window.cut_fill, blockOf_eq]
theorem cut_after0_4 (c : Dev nD) (t : Fin cfg0.N) :
    (cfg0.win 4).cut (cfg0.grid.coords t) ((dats m o5 0 c).after 4 t) = (dats m o5 0 c).blockOf 4 t := by
  rw [after0_4, Window.cut_fill, blockOf_eq]

/-- On the part inside the array, the buffer the body finds for each of the three inputs tiled along the output
    units holds the array's block: just fetched, or kept from the point before (the block index moves only every
    sixteenth point). -/
theorem cut_before0_2 (c : Dev nD) (t : Fin cfg0.N) (d) :
    (cfg0.win 2).cut (cfg0.grid.coords t) ((dats m o5 0 c).before 2 t d) = (dats m o5 0 c).blockOf 2 t :=
  (dats m o5 0 c).cut_before_eq_blockOf 2 ClipFacts.noflush0_2 ClipFacts.noidle0_2 ClipFacts.fetch_zero0_2 ClipFacts.keep0_2
    (cut_after0_2 m o5 c) t d
theorem cut_before0_3 (c : Dev nD) (t : Fin cfg0.N) (d) :
    (cfg0.win 3).cut (cfg0.grid.coords t) ((dats m o5 0 c).before 3 t d) = (dats m o5 0 c).blockOf 3 t :=
  (dats m o5 0 c).cut_before_eq_blockOf 3 ClipFacts.noflush0_3 ClipFacts.noidle0_3 ClipFacts.fetch_zero0_3 ClipFacts.keep0_3
    (cut_after0_3 m o5 c) t d
theorem cut_before0_4 (c : Dev nD) (t : Fin cfg0.N) (d) :
    (cfg0.win 4).cut (cfg0.grid.coords t) ((dats m o5 0 c).before 4 t d) = (dats m o5 0 c).blockOf 4 t :=
  (dats m o5 0 c).cut_before_eq_blockOf 4 ClipFacts.noflush0_4 ClipFacts.noidle0_4 ClipFacts.fetch_zero0_4 ClipFacts.keep0_4
    (cut_after0_4 m o5 c) t d

/-! ## The body at a point -/

/-- The body at point t on the point's staging buffers: the two row-tiled inputs at their blocks, the other three
    inputs at whatever they hold (x2, x3, x4), the output's at anything; it ends with the inputs as they were and the
    output's buffer at the body's value of them. -/
theorem sound_point (c : Dev nD) (t : Fin cfg0.N) (x2 : Vec F S384x10000 .bf16) (x3 : Vec F S384x128 .bf16) (x4 : Vec F S1x384 .f32)
    (K : PUnit → sProp 𝕄) :
    iprop(owns (c : Thread nD τ) (st0_0 t) fullShare (iblk m c 0 t) ∗ owns (c : Thread nD τ) (st0_1 t) fullShare (iblk m c 1 t)
        ∗ owns (c : Thread nD τ) (st0_2 t) fullShare x2 ∗ owns (c : Thread nD τ) (st0_3 t) fullShare x3
        ∗ owns (c : Thread nD τ) (st0_4 t) fullShare x4 ∗ (∃ d, owns (c : Thread nD τ) (st0_5 t) fullShare d)
        ∗ (iprop(owns (c : Thread nD τ) (st0_0 t) fullShare (iblk m c 0 t) ∗ owns (c : Thread nD τ) (st0_1 t) fullShare (iblk m c 1 t)
            ∗ owns (c : Thread nD τ) (st0_2 t) fullShare x2 ∗ owns (c : Thread nD τ) (st0_3 t) fullShare x3
            ∗ owns (c : Thread nD τ) (st0_4 t) fullShare x4
            ∗ owns (c : Thread nD τ) (st0_5 t) fullShare (k0_pay1 (iblk m c 0 t) x2 (iblk m c 1 t) x3 x4)) -∗ K ⟨⟩))
      ⊢ wp frame (wpE (defs₀ (F := F)) Variants.none c none) Set.univ (bodyAt0 t) K := by
  unfold bodyAt0
  rw [← out5_eq]
  exact sound_kernel c Set.univ (grid0.coords t) _ _ _ _ _ _ _ _ _ _ _ _ (iblk m c 0 t) (iblk m c 1 t) x2 x3 x4 K

/-- What the body is called with at point t when the output window is forgotten, -/
def bodyPreF (c : Dev nD) (t : Fin cfg0.N) : sProp 𝕄 :=
  iprop((dats m o5 0 c).Φ t.castSucc ∗ (dats m o5 0 c).owesAt () t.castSucc
    ∗ (∃ d, owns (c : Thread nD τ) (st0_0 t) fullShare ((dats m o5 0 c).before 0 t d))
    ∗ (∃ d, owns (c : Thread nD τ) (st0_1 t) fullShare ((dats m o5 0 c).before 1 t d))
    ∗ (∃ d, owns (c : Thread nD τ) (st0_2 t) fullShare ((dats m o5 0 c).before 2 t d))
    ∗ (∃ d, owns (c : Thread nD τ) (st0_3 t) fullShare ((dats m o5 0 c).before 3 t d))
    ∗ (∃ d, owns (c : Thread nD τ) (st0_4 t) fullShare ((dats m o5 0 c).before 4 t d))
    ∗ (∃ X, owns (c : Thread nD τ) (st0_5 t) fullShare X))

/-- and what it returns: the clipped windows' buffers named on the part inside the array only. -/
def bodyPostF (c : Dev nD) (t : Fin cfg0.N) : sProp 𝕄 :=
  iprop((dats m o5 0 c).Φ t.succ ∗ (dats m o5 0 c).owesAt () t.succ
    ∗ owns (c : Thread nD τ) (st0_0 t) fullShare ((dats m o5 0 c).after 0 t)
    ∗ owns (c : Thread nD τ) (st0_1 t) fullShare ((dats m o5 0 c).after 1 t)
    ∗ (∃ d, owns (c : Thread nD τ) (st0_2 t) fullShare ((cfg0.win 2).fill (cfg0.grid.coords t) d ((cfg0.win 2).cut (cfg0.grid.coords t) ((dats m o5 0 c).after 2 t))))
    ∗ (∃ d, owns (c : Thread nD τ) (st0_3 t) fullShare ((cfg0.win 3).fill (cfg0.grid.coords t) d ((cfg0.win 3).cut (cfg0.grid.coords t) ((dats m o5 0 c).after 3 t))))
    ∗ (∃ d, owns (c : Thread nD τ) (st0_4 t) fullShare ((cfg0.win 4).fill (cfg0.grid.coords t) d ((cfg0.win 4).cut (cfg0.grid.coords t) ((dats m o5 0 c).after 4 t))))
    ∗ (∃ X, owns (c : Thread nD τ) (st0_5 t) fullShare X))

/-- A buffer that agrees with what the proof data names on the part inside the array is that, filled out by itself. -/
theorem refill2 (c : Dev nD) (t : Fin cfg0.N) (d) :
    (cfg0.win 2).fill (cfg0.grid.coords t) ((dats m o5 0 c).before 2 t d) ((cfg0.win 2).cut (cfg0.grid.coords t) ((dats m o5 0 c).after 2 t))
      = (dats m o5 0 c).before 2 t d :=
  (cfg0.win 2).fill_congr_cut _ ((cut_before0_2 m o5 c t d).trans (cut_after0_2 m o5 c t).symm)
theorem refill3 (c : Dev nD) (t : Fin cfg0.N) (d) :
    (cfg0.win 3).fill (cfg0.grid.coords t) ((dats m o5 0 c).before 3 t d) ((cfg0.win 3).cut (cfg0.grid.coords t) ((dats m o5 0 c).after 3 t))
      = (dats m o5 0 c).before 3 t d :=
  (cfg0.win 3).fill_congr_cut _ ((cut_before0_3 m o5 c t d).trans (cut_after0_3 m o5 c t).symm)
theorem refill4 (c : Dev nD) (t : Fin cfg0.N) (d) :
    (cfg0.win 4).fill (cfg0.grid.coords t) ((dats m o5 0 c).before 4 t d) ((cfg0.win 4).cut (cfg0.grid.coords t) ((dats m o5 0 c).after 4 t))
      = (dats m o5 0 c).before 4 t d :=
  (cfg0.win 4).fill_congr_cut _ ((cut_before0_4 m o5 c t d).trans (cut_after0_4 m o5 c t).symm)

theorem sound_body_forget (c : Dev nD) (t : Fin cfg0.N) :
    bodyPreF m o5 c t ⊢ wp frame (wpE (defs₀ (F := F)) Variants.none c none) Set.univ (bodyAt0 t) (fun _ => bodyPostF m o5 c t) := by
  unfold bodyPreF bodyPostF
  simp only [before0_0, before0_1]
  rw [show (dats m o5 0 c).Φ t.succ = (dats m o5 0 c).Φ t.castSucc from rfl,
    show (dats m o5 0 c).owesAt () t.succ = (dats m o5 0 c).owesAt () t.castSucc from rfl,
    after0_0, after0_1]
  iintro ⟨HΦ, Ho, ⟨%d0, H0⟩, ⟨%d1, H1⟩, ⟨%d2, H2⟩, ⟨%d3, H3⟩, ⟨%d4, H4⟩, ⟨%d5, H5⟩⟩
  iapply (sound_point m c t ((dats m o5 0 c).before 2 t d2) ((dats m o5 0 c).before 3 t d3) ((dats m o5 0 c).before 4 t d4) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]
  · iexists ((dats m o5 0 c).before 2 t d2); rw [refill2]; iexact H2
  isplitl [H3]
  · iexists ((dats m o5 0 c).before 3 t d3); rw [refill3]; iexact H3
  isplitl [H4]
  · iexists ((dats m o5 0 c).before 4 t d4); rw [refill4]; iexact H4
  iexists _; iexact H5

/-- The body obligation with the output window forgotten: all the frame claim needs. -/
theorem body_obligation_forget (c : Dev nD) :
    BodyObligationLoose (dats (F := F) m o5 0 c) (defs₀ (F := F)) Variants.none () Set.univ forget5 := fun t => by
  rw [bigSep_W0, bigSep_W0]
  exact sound_body_forget m o5 c t

/-! ## The same with the output window named -/

/-- What the value claim owes about the output: whatever the three clipped inputs' buffers hold outside the array,
    as long as they hold their blocks inside it, the body's value agrees with `o5` on the part of the output block
    inside the array. -/
def Names5 : Prop :=
  ∀ (c : Dev nD) (t : Fin cfg0.N) (x2 : Vec F S384x10000 .bf16) (x3 : Vec F S384x128 .bf16) (x4 : Vec F S1x384 .f32),
    (cfg0.win 2).cut (cfg0.grid.coords t) x2 = iblk m c 2 t → (cfg0.win 3).cut (cfg0.grid.coords t) x3 = iblk m c 3 t →
    (cfg0.win 4).cut (cfg0.grid.coords t) x4 = iblk m c 4 t →
    (cfg0.win 5).cut (cfg0.grid.coords t) (k0_pay1 (iblk m c 0 t) x2 (iblk m c 1 t) x3 x4) = (cfg0.win 5).cut (cfg0.grid.coords t) (o5 c t)

def bodyPreN (c : Dev nD) (t : Fin cfg0.N) : sProp 𝕄 :=
  iprop((dats m o5 0 c).Φ t.castSucc ∗ (dats m o5 0 c).owesAt () t.castSucc
    ∗ (∃ d, owns (c : Thread nD τ) (st0_0 t) fullShare ((dats m o5 0 c).before 0 t d))
    ∗ (∃ d, owns (c : Thread nD τ) (st0_1 t) fullShare ((dats m o5 0 c).before 1 t d))
    ∗ (∃ d, owns (c : Thread nD τ) (st0_2 t) fullShare ((dats m o5 0 c).before 2 t d))
    ∗ (∃ d, owns (c : Thread nD τ) (st0_3 t) fullShare ((dats m o5 0 c).before 3 t d))
    ∗ (∃ d, owns (c : Thread nD τ) (st0_4 t) fullShare ((dats m o5 0 c).before 4 t d))
    ∗ (∃ d, owns (c : Thread nD τ) (st0_5 t) fullShare ((dats m o5 0 c).before 5 t d)))

def bodyPostN (c : Dev nD) (t : Fin cfg0.N) : sProp 𝕄 :=
  iprop((dats m o5 0 c).Φ t.succ ∗ (dats m o5 0 c).owesAt () t.succ
    ∗ owns (c : Thread nD τ) (st0_0 t) fullShare ((dats m o5 0 c).after 0 t)
    ∗ owns (c : Thread nD τ) (st0_1 t) fullShare ((dats m o5 0 c).after 1 t)
    ∗ (∃ d, owns (c : Thread nD τ) (st0_2 t) fullShare ((cfg0.win 2).fill (cfg0.grid.coords t) d ((cfg0.win 2).cut (cfg0.grid.coords t) ((dats m o5 0 c).after 2 t))))
    ∗ (∃ d, owns (c : Thread nD τ) (st0_3 t) fullShare ((cfg0.win 3).fill (cfg0.grid.coords t) d ((cfg0.win 3).cut (cfg0.grid.coords t) ((dats m o5 0 c).after 3 t))))
    ∗ (∃ d, owns (c : Thread nD τ) (st0_4 t) fullShare ((cfg0.win 4).fill (cfg0.grid.coords t) d ((cfg0.win 4).cut (cfg0.grid.coords t) ((dats m o5 0 c).after 4 t))))
    ∗ (∃ d, owns (c : Thread nD τ) (st0_5 t) fullShare ((cfg0.win 5).fill (cfg0.grid.coords t) d ((cfg0.win 5).cut (cfg0.grid.coords t) ((dats m o5 0 c).after 5 t)))))

theorem sound_body_named (h5 : Names5 m o5) (c : Dev nD) (t : Fin cfg0.N) :
    bodyPreN m o5 c t ⊢ wp frame (wpE (defs₀ (F := F)) Variants.none c none) Set.univ (bodyAt0 t) (fun _ => bodyPostN m o5 c t) := by
  unfold bodyPreN bodyPostN
  simp only [before0_0, before0_1]
  rw [show (dats m o5 0 c).Φ t.succ = (dats m o5 0 c).Φ t.castSucc from rfl,
    show (dats m o5 0 c).owesAt () t.succ = (dats m o5 0 c).owesAt () t.castSucc from rfl,
    after0_0, after0_1, after0_5]
  iintro ⟨HΦ, Ho, ⟨%d0, H0⟩, ⟨%d1, H1⟩, ⟨%d2, H2⟩, ⟨%d3, H3⟩, ⟨%d4, H4⟩, ⟨%d5, H5⟩⟩
  iapply (sound_point m c t ((dats m o5 0 c).before 2 t d2) ((dats m o5 0 c).before 3 t d3) ((dats m o5 0 c).before 4 t d4) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]
  · iexists ((dats m o5 0 c).before 2 t d2); rw [refill2]; iexact H2
  isplitl [H3]
  · iexists ((dats m o5 0 c).before 3 t d3); rw [refill3]; iexact H3
  isplitl [H4]
  · iexists ((dats m o5 0 c).before 4 t d4); rw [refill4]; iexact H4
  iexists (k0_pay1 (iblk m c 0 t) ((dats m o5 0 c).before 2 t d2) (iblk m c 1 t) ((dats m o5 0 c).before 3 t d3) ((dats m o5 0 c).before 4 t d4))
  rw [(cfg0.win 5).fill_congr_cut _ (h5 c t _ _ _ ((cut_before0_2 m o5 c t d2).trans (blockOf_eq m o5 c 2 t))
    ((cut_before0_3 m o5 c t d3).trans (blockOf_eq m o5 c 3 t)) ((cut_before0_4 m o5 c t d4).trans (blockOf_eq m o5 c 4 t)))]
  iexact H5

/-- The body obligation with every window named. -/
theorem body_obligation_named (h5 : Names5 m o5) (c : Dev nD) :
    BodyObligationLoose (dats (F := F) m o5 0 c) (defs₀ (F := F)) Variants.none () Set.univ := fun t => by
  rw [bigSep_W0, bigSep_W0]
  exact sound_body_named m o5 h5 c t

/-! ## The runs -/

set_option backward.isDefEq.respectTransparency.types false in
/-- With every window named: every weakly fair execution terminates, every array of the pipeline ends at what the
    write-backs of the named contents make it, every other unscoped buffer as the region found it. -/
theorem run_named (h5 : Names5 m o5) :
    θ_run defs (onTc (τ := τ) (main (F := F))) (s₀ m ρ) (Pipeline.FramePost cfgs (dats m o5) 0 (V m)) :=
  Pipeline.θ_run_frame cfgs (dats m o5) (0 : Fin 1) launch0 defs₀ Variants.none m ρ main
    (hbody := fun c => body_obligation_named m o5 h5 c) (hshare := fun c => (dats m o5 0 c).share_full fun _ => rfl)
    (howed := fun _ _ => rfl) (V := V m) (hmain := hmain m Variants.none) (hA := A_eq m o5) (hΦ := fun _ _ => rfl)

set_option backward.isDefEq.respectTransparency.types false in
/-- With the output window forgotten: every weakly fair execution terminates and every unscoped buffer that is no
    window's array ends as the region found it. -/
theorem run_forget :
    θ_run defs (onTc (τ := τ) (main (F := F))) (s₀ m ρ)
      (Pipeline.RDat.FramePost (cfgs 0) (fun c => (dats m o5 0 c).toRForget forget5) (V m)) :=
  Pipeline.RDat.θ_run_frame cfgs (0 : Fin 1) launch0 defs₀ Variants.none (fun c => (dats m o5 0 c).toRForget forget5) m ρ main
    (hbody := fun c => (body_obligation_forget m o5 c).toRForget)
    (hshare := fun c => ((dats m o5 0 c).toRForget forget5).share_full fun _ => rfl)
    (howed := fun _ _ => rfl) (V := V m) (hmain := hmain m Variants.none) (hA := A_eq m o5) (hΦ := fun _ _ => rfl)

/-- The frame: the program terminates without a fault and its nine arguments end unchanged. None of them is a
    window's array (the windows stage results of the host operations), so each is among the buffers the run leaves as
    the region found them, and no host operation before the region writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_forget m ρ (fun _ _ _ => Scalar.ofBits .f32 0#32))

end Cert.Kernel.Body

end
-- ==== Proof.ClipFacts.lean ====
/-
  Facts about this kernel's 27 × 16 grid for its three clipped input windows (2, 3 and 4), each decided
  over the 432 grid points: the block index of such a window depends only on the outer grid coordinate, so
  the window is fetched when the outer coordinate changes (every 16th point) and otherwise has the block
  index — hence the same cut at the array's end — that it had at the point before.
-/
import proofs.«412227_j71700184039630_1_alg».proof.Proof.Gen.KernelIdeal.Points

set_option Elab.async false

noncomputable section

namespace Cert.KernelIdeal.ClipFacts

open Cert.KernelIdeal Cert.KernelIdeal.Gen
open Idealize.ShloMosaic Idealize.ShloMosaic.TcCoe

/-- Window 2 (operand 2) is never written back. -/
theorem noflush0_2 : ∀ t : Fin cfg0.N, (cfg0.win 2).flush t = false :=
  (by decide +kernel : ∀ t : Fin grid0.N, win0_2.flush t = false)

/-- Window 2 is fetched at the first point. -/
theorem fetch_zero0_2 : ∀ t : Fin cfg0.N, t.val = 0 → (cfg0.win 2).fetch t = true :=
  (by decide +kernel : ∀ t : Fin grid0.N, t.val = 0 → win0_2.fetch t = true)

/-- No point is idle for window 2. -/
theorem noidle0_2 : ∀ i, cfg0.idle 2 i = false := fun _ => rfl

/-- At a point after the first where window 2 is not fetched, its block index and the sizes of the
    part of the block inside the array are those of the point before. -/
theorem keep0_2 : ∀ t : Fin cfg0.N, (cfg0.win 2).fetch t = false → ∀ h : t.val ≠ 0,
    (∀ a, (cfg0.win 2).index t a = (cfg0.win 2).index ⟨t.val - 1, Nat.lt_of_le_of_lt (Nat.sub_le _ _) t.isLt⟩ a) ∧
    (∀ a, (cfg0.win 2).xsize (cfg0.grid.coords t) a
      = (cfg0.win 2).xsize (cfg0.grid.coords ⟨t.val - 1, Nat.lt_of_le_of_lt (Nat.sub_le _ _) t.isLt⟩) a) :=
  (by decide +kernel : ∀ t : Fin grid0.N, win0_2.fetch t = false → ∀ h : t.val ≠ 0,
    (∀ a, win0_2.index t a = win0_2.index ⟨t.val - 1, Nat.lt_of_le_of_lt (Nat.sub_le _ _) t.isLt⟩ a) ∧
    (∀ a, win0_2.xsize (grid0.coords t) a
      = win0_2.xsize (grid0.coords ⟨t.val - 1, Nat.lt_of_le_of_lt (Nat.sub_le _ _) t.isLt⟩) a))

/-- Window 3 (operand 3) is never written back. -/
theorem noflush0_3 : ∀ t : Fin cfg0.N, (cfg0.win 3).flush t = false :=
  (by decide +kernel : ∀ t : Fin grid0.N, win0_3.flush t = false)

/-- Window 3 is fetched at the first point. -/
theorem fetch_zero0_3 : ∀ t : Fin cfg0.N, t.val = 0 → (cfg0.win 3).fetch t = true :=
  (by decide +kernel : ∀ t : Fin grid0.N, t.val = 0 → win0_3.fetch t = true)

/-- No point is idle for window 3. -/
theorem noidle0_3 : ∀ i, cfg0.idle 3 i = false := fun _ => rfl

/-- At a point after the first where window 3 is not fetched, its block index and the sizes of the
    part of the block inside the array are those of the point before. -/
theorem keep0_3 : ∀ t : Fin cfg0.N, (cfg0.win 3).fetch t = false → ∀ h : t.val ≠ 0,
    (∀ a, (cfg0.win 3).index t a = (cfg0.win 3).index ⟨t.val - 1, Nat.lt_of_le_of_lt (Nat.sub_le _ _) t.isLt⟩ a) ∧
    (∀ a, (cfg0.win 3).xsize (cfg0.grid.coords t) a
      = (cfg0.win 3).xsize (cfg0.grid.coords ⟨t.val - 1, Nat.lt_of_le_of_lt (Nat.sub_le _ _) t.isLt⟩) a) :=
  (by decide +kernel : ∀ t : Fin grid0.N, win0_3.fetch t = false → ∀ h : t.val ≠ 0,
    (∀ a, win0_3.index t a = win0_3.index ⟨t.val - 1, Nat.lt_of_le_of_lt (Nat.sub_le _ _) t.isLt⟩ a) ∧
    (∀ a, win0_3.xsize (grid0.coords t) a
      = win0_3.xsize (grid0.coords ⟨t.val - 1, Nat.lt_of_le_of_lt (Nat.sub_le _ _) t.isLt⟩) a))

/-- Window 4 (operand 4) is never written back. -/
theorem noflush0_4 : ∀ t : Fin cfg0.N, (cfg0.win 4).flush t = false :=
  (by decide +kernel : ∀ t : Fin grid0.N, win0_4.flush t = false)

/-- Window 4 is fetched at the first point. -/
theorem fetch_zero0_4 : ∀ t : Fin cfg0.N, t.val = 0 → (cfg0.win 4).fetch t = true :=
  (by decide +kernel : ∀ t : Fin grid0.N, t.val = 0 → win0_4.fetch t = true)

/-- No point is idle for window 4. -/
theorem noidle0_4 : ∀ i, cfg0.idle 4 i = false := fun _ => rfl

/-- At a point after the first where window 4 is not fetched, its block index and the sizes of the
    part of the block inside the array are those of the point before. -/
theorem keep0_4 : ∀ t : Fin cfg0.N, (cfg0.win 4).fetch t = false → ∀ h : t.val ≠ 0,
    (∀ a, (cfg0.win 4).index t a = (cfg0.win 4).index ⟨t.val - 1, Nat.lt_of_le_of_lt (Nat.sub_le _ _) t.isLt⟩ a) ∧
    (∀ a, (cfg0.win 4).xsize (cfg0.grid.coords t) a
      = (cfg0.win 4).xsize (cfg0.grid.coords ⟨t.val - 1, Nat.lt_of_le_of_lt (Nat.sub_le _ _) t.isLt⟩) a) :=
  (by decide +kernel : ∀ t : Fin grid0.N, win0_4.fetch t = false → ∀ h : t.val ≠ 0,
    (∀ a, win0_4.index t a = win0_4.index ⟨t.val - 1, Nat.lt_of_le_of_lt (Nat.sub_le _ _) t.isLt⟩ a) ∧
    (∀ a, win0_4.xsize (grid0.coords t) a
      = win0_4.xsize (grid0.coords ⟨t.val - 1, Nat.lt_of_le_of_lt (Nat.sub_le _ _) t.isLt⟩) a))

end Cert.KernelIdeal.ClipFacts

end
-- ==== Proof.BodyI.lean ====
/-
  The kernel body's triple and the proof data of the one pipeline, at any float instance.

  The body loads its five input buffers whole, computes one value from them and stores it whole into the output
  buffer; so after the body the inputs' buffers hold what they held and the output's holds that value.
  Windows 2, 3, 4 (the two weight blocks and the bias block) and the output window 5 overhang their arrays at the
  last block along the output units: there only the part of a buffer inside the array is ever named.
-/
import proofs.«412227_j71700184039630_1_alg».proof.Proof.Gen.KernelIdeal.Frame
import proofs.«412227_j71700184039630_1_alg».proof.Proof.Gen.KernelIdeal.Skeleton
import Idealize.ShloMosaic.Lib.Pipeline.Value
import proofs.«412227_j71700184039630_1_alg».proof.Proof.LibClip
import proofs.«412227_j71700184039630_1_alg».proof.Proof.ClipFacts

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole output buffer as one rectangle. -/
abbrev rOut : Rect S256x384 := Rect.unit (s := S256x384) ![0, 0] S256x384.size inb_S256x384_S256x384_0_0

/-- The one store covers the output buffer. -/
theorem coverOut (p0 : Vec F S256x384 .f32) (y : S256x384.Idx) :
    ∃ pc ∈ ([⟨rOut, p0⟩] : List (View.Piece (Elt F) S256x384 .f32)), y ∈ pc.1.set :=
  View.cover_of_tiled [⟨rOut, p0⟩] S256x384.size (by rfl) y

/-- The whole input buffers as rectangles. -/
abbrev r0 : Rect S256x1 := Rect.unit (s := S256x1) ![0, 0] S256x1.size inb_S256x1_S256x1_0_0
abbrev r1 : Rect S256x128 := Rect.unit (s := S256x128) ![0, 0] S256x128.size inb_S256x128_S256x128_0_0
abbrev r2 : Rect S384x10000 := Rect.unit (s := S384x10000) ![0, 0] S384x10000.size inb_S384x10000_S384x10000_0_0
abbrev r3 : Rect S384x128 := Rect.unit (s := S384x128) ![0, 0] S384x128.size inb_S384x128_S384x128_0_0
abbrev r4 : Rect S1x384 := Rect.unit (s := S1x384) ![0, 0] S1x384.size inb_S1x384_S1x384_0_0

/-- What the output buffer holds after the body, from the input buffers' contents: its one store as a piece. -/
def out5 (x0 : Vec F S256x1 .i32) (x1 : Vec F S256x128 .bf16) (x2 : Vec F S384x10000 .bf16) (x3 : Vec F S384x128 .bf16)
    (x4 : Vec F S1x384 .f32) : Vec F S256x384 .f32 :=
  View.canon [⟨rOut, k0_pay1 (View.ld x0 r0) (View.ld x2 r2) (View.ld x1 r1) (View.ld x3 r3) (View.ld x4 r4)⟩]

/-- Every access is the whole buffer, so that piece is the body's value of the whole input contents. -/
theorem out5_eq (x0 : Vec F S256x1 .i32) (x1 : Vec F S256x128 .bf16) (x2 : Vec F S384x10000 .bf16) (x3 : Vec F S384x128 .bf16)
    (x4 : Vec F S1x384 .f32) : out5 x0 x1 x2 x3 x4 = k0_pay1 x0 x2 x1 x3 x4 := by
  have hz : (![0, 0] : Fin 2 → Nat) = fun _ => 0 := funext fun a => by fin_cases a <;> rfl
  unfold out5
  rw [View.canon_unit_zero hz]
  simp only [View.ld_unit_zero (S := S256x1) hz, View.ld_unit_zero (S := S256x128) hz, View.ld_unit_zero (S := S384x10000) hz,
    View.ld_unit_zero (S := S384x128) hz, View.ld_unit_zero (S := S1x384) hz]

set_option maxHeartbeats 1000000 in
/-- The body on whole staging buffers: the five inputs at contents x0 … x4 and the output's at anything; it ends
    with the inputs as they were and the output's buffer at the body's value of the inputs. -/
theorem sound_kernel (c : Dev nD) (E : Set ℕ) (i : grid0.Coords)
    (arg2 : Memref sig .tc .vmem S256x1 .i32) (harg2 : arg2.IsWhole) (arg3 : Memref sig .tc .vmem S256x128 .bf16) (harg3 : arg3.IsWhole)
    (arg4 : Memref sig .tc .vmem S384x10000 .bf16) (harg4 : arg4.IsWhole) (arg5 : Memref sig .tc .vmem S384x128 .bf16) (harg5 : arg5.IsWhole)
    (arg6 : Memref sig .tc .vmem S1x384 .f32) (harg6 : arg6.IsWhole) (arg7 : Memref sig .tc .vmem S256x384 .f32) (harg7 : arg7.IsWhole)
    (x0 : Vec F S256x1 .i32) (x1 : Vec F S256x128 .bf16) (x2 : Vec F S384x10000 .bf16) (x3 : Vec F S384x128 .bf16) (x4 : Vec F S1x384 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out5 x0 x1 x2 x3 x4)) -∗ K ⟨⟩))
      ⊢ wp frame (wpE (defs₀ (F := F)) Variants.none c none) E
          (cc0__wide_deep_kernel i arg2 harg2 arg3 harg3 arg4 harg4 arg5 harg5 arg6 harg6 arg7 harg7) K := by
  simp only [cc0__wide_deep_kernel_eq_skeleton]; unfold cc0__wide_deep_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverOut _)

/-! ## The proof data -/

variable (m : (ℓ : Loc nD τ sig) → Buf (Elt F) ℓ) (ρ : Dev nD → PrngReg)

/-- The output window is the one forgotten when only the frame is claimed. -/
abbrev forget5 : Fin 6 → Bool := fun | 0 => false | 1 => false | 2 => false | 3 => false | 4 => false | 5 => true | ⟨_ + 6, h⟩ => absurd h (Nat.not_lt.2 (Nat.le_add_left _ _))

/-- The proof data of the one pipeline on core c. The arrays are as the region finds them. After the body the two
    row-tiled inputs' buffers hold their blocks; the three inputs tiled along the output units hold their blocks on
    the part inside the array (filled out with a word nothing reads); the output's buffer holds `o5 c t`, a
    parameter: the value claim names it, the frame claim forgets it. -/
def dats (o5 : Dev nD → Fin cfg0.N → S256x384.Idx → Elt F .f32) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (cfg0.win 2).fill (cfg0.grid.coords t) (fun _ => Scalar.ofBits .bf16 0#16) (iblk m c 2 t)
    | ⟨3, _⟩ => (cfg0.win 3).fill (cfg0.grid.coords t) (fun _ => Scalar.ofBits .bf16 0#16) (iblk m c 3 t)
    | ⟨4, _⟩ => (cfg0.win 4).fill (cfg0.grid.coords t) (fun _ => Scalar.ofBits .f32 0#32) (iblk m c 4 t)
    | ⟨5, _⟩ => o5 c t
  Φ _ := Pipeline.ΦA spec0 c
  q _ := fullShare
  owed _ := 0

variable (o5 : Dev nD → Fin cfg0.N → S256x384.Idx → Elt F .f32)

theorem A_eq (c : Dev nD) (w : Fin cfg0.W) : (dats m o5 0 c).A w = V m c (Pipeline.arrRef spec0 w) := by
  dsimp only [dats]

theorem after0_0 (c : Dev nD) (t : Fin cfg0.N) : (dats m o5 0 c).after 0 t = iblk m c 0 t := by dsimp only [dats]
theorem after0_1 (c : Dev nD) (t : Fin cfg0.N) : (dats m o5 0 c).after 1 t = iblk m c 1 t := by dsimp only [dats]
theorem after0_2 (c : Dev nD) (t : Fin cfg0.N) : (dats m o5 0 c).after 2 t
    = (cfg0.win 2).fill (cfg0.grid.coords t) (fun _ => Scalar.ofBits .bf16 0#16) (iblk m c 2 t) := by dsimp only [dats]
theorem after0_3 (c : Dev nD) (t : Fin cfg0.N) : (dats m o5 0 c).after 3 t
    = (cfg0.win 3).fill (cfg0.grid.coords t) (fun _ => Scalar.ofBits .bf16 0#16) (iblk m c 3 t) := by dsimp only [dats]
theorem after0_4 (c : Dev nD) (t : Fin cfg0.N) : (dats m o5 0 c).after 4 t
    = (cfg0.win 4).fill (cfg0.grid.coords t) (fun _ => Scalar.ofBits .f32 0#32) (iblk m c 4 t) := by dsimp only [dats]
theorem after0_5 (c : Dev nD) (t : Fin cfg0.N) : (dats m o5 0 c).after 5 t = o5 c t := by dsimp only [dats]

/-- The row-tiled inputs' buffers hold their blocks at every point. -/
theorem before0_0 (c : Dev nD) (t : Fin cfg0.N) (d) : (dats m o5 0 c).before 0 t d = iblk m c 0 t :=
  before0_0_of m (dats m o5 0 c) (A_eq m o5 c 0) (after0_0 m o5 c) t d
theorem before0_1 (c : Dev nD) (t : Fin cfg0.N) (d) : (dats m o5 0 c).before 1 t d = iblk m c 1 t :=
  before0_1_of m (dats m o5 0 c) (A_eq m o5 c 1) (after0_1 m o5 c) t d

/-- What the fetch of a window reads is its block of the array as the region found it. -/
theorem blockOf_eq (c : Dev nD) (w : Fin cfg0.W) (t : Fin cfg0.N) : (dats m o5 0 c).blockOf w t = iblk m c w t := by
  unfold Dat.blockOf iblk; rw [A_eq]

/-- On the part inside the array, what the body leaves in the three inputs tiled along the output units is their block. -/
theorem cut_after0_2 (c : Dev nD) (t : Fin cfg0.N) :
    (cfg0.win 2).cut (cfg0.grid.coords t) ((dats m o5 0 c).after 2 t) = (dats m o5 0 c).blockOf 2 t := by
  rw [after0_2, Window.cut_fill, blockOf_eq]
theorem cut_after0_3 (c : Dev nD) (t : Fin cfg0.N) :
    (cfg0.win 3).cut (cfg0.grid.coords t) ((dats m o5 0 c).after 3 t) = (dats m o5 0 c).blockOf 3 t := by
  rw [after0_3, Window.cut_fill, blockOf_eq]
theorem cut_after0_4 (c : Dev nD) (t : Fin cfg0.N) :
    (cfg0.win 4).cut (cfg0.grid.coords t) ((dats m o5 0 c).after 4 t) = (dats m o5 0 c).blockOf 4 t := by
  rw [after0_4, Window.cut_fill, blockOf_eq]

/-- On the part inside the array, the buffer the body finds for each of the three inputs tiled along the output
    units holds the array's block: just fetched, or kept from the point before (the block index moves only every
    sixteenth point). -/
theorem cut_before0_2 (c : Dev nD) (t : Fin cfg0.N) (d) :
    (cfg0.win 2).cut (cfg0.grid.coords t) ((dats m o5 0 c).before 2 t d) = (dats m o5 0 c).blockOf 2 t :=
  (dats m o5 0 c).cut_before_eq_blockOf 2 ClipFacts.noflush0_2 ClipFacts.noidle0_2 ClipFacts.fetch_zero0_2 ClipFacts.keep0_2
    (cut_after0_2 m o5 c) t d
theorem cut_before0_3 (c : Dev nD) (t : Fin cfg0.N) (d) :
    (cfg0.win 3).cut (cfg0.grid.coords t) ((dats m o5 0 c).before 3 t d) = (dats m o5 0 c).blockOf 3 t :=
  (dats m o5 0 c).cut_before_eq_blockOf 3 ClipFacts.noflush0_3 ClipFacts.noidle0_3 ClipFacts.fetch_zero0_3 ClipFacts.keep0_3
    (cut_after0_3 m o5 c) t d
theorem cut_before0_4 (c : Dev nD) (t : Fin cfg0.N) (d) :
    (cfg0.win 4).cut (cfg0.grid.coords t) ((dats m o5 0 c).before 4 t d) = (dats m o5 0 c).blockOf 4 t :=
  (dats m o5 0 c).cut_before_eq_blockOf 4 ClipFacts.noflush0_4 ClipFacts.noidle0_4 ClipFacts.fetch_zero0_4 ClipFacts.keep0_4
    (cut_after0_4 m o5 c) t d

/-! ## The body at a point -/

/-- The body at point t on the point's staging buffers: the two row-tiled inputs at their blocks, the other three
    inputs at whatever they hold (x2, x3, x4), the output's at anything; it ends with the inputs as they were and the
    output's buffer at the body's value of them. -/
theorem sound_point (c : Dev nD) (t : Fin cfg0.N) (x2 : Vec F S384x10000 .bf16) (x3 : Vec F S384x128 .bf16) (x4 : Vec F S1x384 .f32)
    (K : PUnit → sProp 𝕄) :
    iprop(owns (c : Thread nD τ) (st0_0 t) fullShare (iblk m c 0 t) ∗ owns (c : Thread nD τ) (st0_1 t) fullShare (iblk m c 1 t)
        ∗ owns (c : Thread nD τ) (st0_2 t) fullShare x2 ∗ owns (c : Thread nD τ) (st0_3 t) fullShare x3
        ∗ owns (c : Thread nD τ) (st0_4 t) fullShare x4 ∗ (∃ d, owns (c : Thread nD τ) (st0_5 t) fullShare d)
        ∗ (iprop(owns (c : Thread nD τ) (st0_0 t) fullShare (iblk m c 0 t) ∗ owns (c : Thread nD τ) (st0_1 t) fullShare (iblk m c 1 t)
            ∗ owns (c : Thread nD τ) (st0_2 t) fullShare x2 ∗ owns (c : Thread nD τ) (st0_3 t) fullShare x3
            ∗ owns (c : Thread nD τ) (st0_4 t) fullShare x4
            ∗ owns (c : Thread nD τ) (st0_5 t) fullShare (k0_pay1 (iblk m c 0 t) x2 (iblk m c 1 t) x3 x4)) -∗ K ⟨⟩))
      ⊢ wp frame (wpE (defs₀ (F := F)) Variants.none c none) Set.univ (bodyAt0 t) K := by
  unfold bodyAt0
  rw [← out5_eq]
  exact sound_kernel c Set.univ (grid0.coords t) _ _ _ _ _ _ _ _ _ _ _ _ (iblk m c 0 t) (iblk m c 1 t) x2 x3 x4 K

/-- What the body is called with at point t when the output window is forgotten, -/
def bodyPreF (c : Dev nD) (t : Fin cfg0.N) : sProp 𝕄 :=
  iprop((dats m o5 0 c).Φ t.castSucc ∗ (dats m o5 0 c).owesAt () t.castSucc
    ∗ (∃ d, owns (c : Thread nD τ) (st0_0 t) fullShare ((dats m o5 0 c).before 0 t d))
    ∗ (∃ d, owns (c : Thread nD τ) (st0_1 t) fullShare ((dats m o5 0 c).before 1 t d))
    ∗ (∃ d, owns (c : Thread nD τ) (st0_2 t) fullShare ((dats m o5 0 c).before 2 t d))
    ∗ (∃ d, owns (c : Thread nD τ) (st0_3 t) fullShare ((dats m o5 0 c).before 3 t d))
    ∗ (∃ d, owns (c : Thread nD τ) (st0_4 t) fullShare ((dats m o5 0 c).before 4 t d))
    ∗ (∃ X, owns (c : Thread nD τ) (st0_5 t) fullShare X))

/-- and what it returns: the clipped windows' buffers named on the part inside the array only. -/
def bodyPostF (c : Dev nD) (t : Fin cfg0.N) : sProp 𝕄 :=
  iprop((dats m o5 0 c).Φ t.succ ∗ (dats m o5 0 c).owesAt () t.succ
    ∗ owns (c : Thread nD τ) (st0_0 t) fullShare ((dats m o5 0 c).after 0 t)
    ∗ owns (c : Thread nD τ) (st0_1 t) fullShare ((dats m o5 0 c).after 1 t)
    ∗ (∃ d, owns (c : Thread nD τ) (st0_2 t) fullShare ((cfg0.win 2).fill (cfg0.grid.coords t) d ((cfg0.win 2).cut (cfg0.grid.coords t) ((dats m o5 0 c).after 2 t))))
    ∗ (∃ d, owns (c : Thread nD τ) (st0_3 t) fullShare ((cfg0.win 3).fill (cfg0.grid.coords t) d ((cfg0.win 3).cut (cfg0.grid.coords t) ((dats m o5 0 c).after 3 t))))
    ∗ (∃ d, owns (c : Thread nD τ) (st0_4 t) fullShare ((cfg0.win 4).fill (cfg0.grid.coords t) d ((cfg0.win 4).cut (cfg0.grid.coords t) ((dats m o5 0 c).after 4 t))))
    ∗ (∃ X, owns (c : Thread nD τ) (st0_5 t) fullShare X))

/-- A buffer that agrees with what the proof data names on the part inside the array is that, filled out by itself. -/
theorem refill2 (c : Dev nD) (t : Fin cfg0.N) (d) :
    (cfg0.win 2).fill (cfg0.grid.coords t) ((dats m o5 0 c).before 2 t d) ((cfg0.win 2).cut (cfg0.grid.coords t) ((dats m o5 0 c).after 2 t))
      = (dats m o5 0 c).before 2 t d :=
  (cfg0.win 2).fill_congr_cut _ ((cut_before0_2 m o5 c t d).trans (cut_after0_2 m o5 c t).symm)
theorem refill3 (c : Dev nD) (t : Fin cfg0.N) (d) :
    (cfg0.win 3).fill (cfg0.grid.coords t) ((dats m o5 0 c).before 3 t d) ((cfg0.win 3).cut (cfg0.grid.coords t) ((dats m o5 0 c).after 3 t))
      = (dats m o5 0 c).before 3 t d :=
  (cfg0.win 3).fill_congr_cut _ ((cut_before0_3 m o5 c t d).trans (cut_after0_3 m o5 c t).symm)
theorem refill4 (c : Dev nD) (t : Fin cfg0.N) (d) :
    (cfg0.win 4).fill (cfg0.grid.coords t) ((dats m o5 0 c).before 4 t d) ((cfg0.win 4).cut (cfg0.grid.coords t) ((dats m o5 0 c).after 4 t))
      = (dats m o5 0 c).before 4 t d :=
  (cfg0.win 4).fill_congr_cut _ ((cut_before0_4 m o5 c t d).trans (cut_after0_4 m o5 c t).symm)

theorem sound_body_forget (c : Dev nD) (t : Fin cfg0.N) :
    bodyPreF m o5 c t ⊢ wp frame (wpE (defs₀ (F := F)) Variants.none c none) Set.univ (bodyAt0 t) (fun _ => bodyPostF m o5 c t) := by
  unfold bodyPreF bodyPostF
  simp only [before0_0, before0_1]
  rw [show (dats m o5 0 c).Φ t.succ = (dats m o5 0 c).Φ t.castSucc from rfl,
    show (dats m o5 0 c).owesAt () t.succ = (dats m o5 0 c).owesAt () t.castSucc from rfl,
    after0_0, after0_1]
  iintro ⟨HΦ, Ho, ⟨%d0, H0⟩, ⟨%d1, H1⟩, ⟨%d2, H2⟩, ⟨%d3, H3⟩, ⟨%d4, H4⟩, ⟨%d5, H5⟩⟩
  iapply (sound_point m c t ((dats m o5 0 c).before 2 t d2) ((dats m o5 0 c).before 3 t d3) ((dats m o5 0 c).before 4 t d4) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]
  · iexists ((dats m o5 0 c).before 2 t d2); rw [refill2]; iexact H2
  isplitl [H3]
  · iexists ((dats m o5 0 c).before 3 t d3); rw [refill3]; iexact H3
  isplitl [H4]
  · iexists ((dats m o5 0 c).before 4 t d4); rw [refill4]; iexact H4
  iexists _; iexact H5

/-- The body obligation with the output window forgotten: all the frame claim needs. -/
theorem body_obligation_forget (c : Dev nD) :
    BodyObligationLoose (dats (F := F) m o5 0 c) (defs₀ (F := F)) Variants.none () Set.univ forget5 := fun t => by
  rw [bigSep_W0, bigSep_W0]
  exact sound_body_forget m o5 c t

/-! ## The same with the output window named -/

/-- What the value claim owes about the output: whatever the three clipped inputs' buffers hold outside the array,
    as long as they hold their blocks inside it, the body's value agrees with `o5` on the part of the output block
    inside the array. -/
def Names5 : Prop :=
  ∀ (c : Dev nD) (t : Fin cfg0.N) (x2 : Vec F S384x10000 .bf16) (x3 : Vec F S384x128 .bf16) (x4 : Vec F S1x384 .f32),
    (cfg0.win 2).cut (cfg0.grid.coords t) x2 = iblk m c 2 t → (cfg0.win 3).cut (cfg0.grid.coords t) x3 = iblk m c 3 t →
    (cfg0.win 4).cut (cfg0.grid.coords t) x4 = iblk m c 4 t →
    (cfg0.win 5).cut (cfg0.grid.coords t) (k0_pay1 (iblk m c 0 t) x2 (iblk m c 1 t) x3 x4) = (cfg0.win 5).cut (cfg0.grid.coords t) (o5 c t)

def bodyPreN (c : Dev nD) (t : Fin cfg0.N) : sProp 𝕄 :=
  iprop((dats m o5 0 c).Φ t.castSucc ∗ (dats m o5 0 c).owesAt () t.castSucc
    ∗ (∃ d, owns (c : Thread nD τ) (st0_0 t) fullShare ((dats m o5 0 c).before 0 t d))
    ∗ (∃ d, owns (c : Thread nD τ) (st0_1 t) fullShare ((dats m o5 0 c).before 1 t d))
    ∗ (∃ d, owns (c : Thread nD τ) (st0_2 t) fullShare ((dats m o5 0 c).before 2 t d))
    ∗ (∃ d, owns (c : Thread nD τ) (st0_3 t) fullShare ((dats m o5 0 c).before 3 t d))
    ∗ (∃ d, owns (c : Thread nD τ) (st0_4 t) fullShare ((dats m o5 0 c).before 4 t d))
    ∗ (∃ d, owns (c : Thread nD τ) (st0_5 t) fullShare ((dats m o5 0 c).before 5 t d)))

def bodyPostN (c : Dev nD) (t : Fin cfg0.N) : sProp 𝕄 :=
  iprop((dats m o5 0 c).Φ t.succ ∗ (dats m o5 0 c).owesAt () t.succ
    ∗ owns (c : Thread nD τ) (st0_0 t) fullShare ((dats m o5 0 c).after 0 t)
    ∗ owns (c : Thread nD τ) (st0_1 t) fullShare ((dats m o5 0 c).after 1 t)
    ∗ (∃ d, owns (c : Thread nD τ) (st0_2 t) fullShare ((cfg0.win 2).fill (cfg0.grid.coords t) d ((cfg0.win 2).cut (cfg0.grid.coords t) ((dats m o5 0 c).after 2 t))))
    ∗ (∃ d, owns (c : Thread nD τ) (st0_3 t) fullShare ((cfg0.win 3).fill (cfg0.grid.coords t) d ((cfg0.win 3).cut (cfg0.grid.coords t) ((dats m o5 0 c).after 3 t))))
    ∗ (∃ d, owns (c : Thread nD τ) (st0_4 t) fullShare ((cfg0.win 4).fill (cfg0.grid.coords t) d ((cfg0.win 4).cut (cfg0.grid.coords t) ((dats m o5 0 c).after 4 t))))
    ∗ (∃ d, owns (c : Thread nD τ) (st0_5 t) fullShare ((cfg0.win 5).fill (cfg0.grid.coords t) d ((cfg0.win 5).cut (cfg0.grid.coords t) ((dats m o5 0 c).after 5 t)))))

theorem sound_body_named (h5 : Names5 m o5) (c : Dev nD) (t : Fin cfg0.N) :
    bodyPreN m o5 c t ⊢ wp frame (wpE (defs₀ (F := F)) Variants.none c none) Set.univ (bodyAt0 t) (fun _ => bodyPostN m o5 c t) := by
  unfold bodyPreN bodyPostN
  simp only [before0_0, before0_1]
  rw [show (dats m o5 0 c).Φ t.succ = (dats m o5 0 c).Φ t.castSucc from rfl,
    show (dats m o5 0 c).owesAt () t.succ = (dats m o5 0 c).owesAt () t.castSucc from rfl,
    after0_0, after0_1, after0_5]
  iintro ⟨HΦ, Ho, ⟨%d0, H0⟩, ⟨%d1, H1⟩, ⟨%d2, H2⟩, ⟨%d3, H3⟩, ⟨%d4, H4⟩, ⟨%d5, H5⟩⟩
  iapply (sound_point m c t ((dats m o5 0 c).before 2 t d2) ((dats m o5 0 c).before 3 t d3) ((dats m o5 0 c).before 4 t d4) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]
  · iexists ((dats m o5 0 c).before 2 t d2); rw [refill2]; iexact H2
  isplitl [H3]
  · iexists ((dats m o5 0 c).before 3 t d3); rw [refill3]; iexact H3
  isplitl [H4]
  · iexists ((dats m o5 0 c).before 4 t d4); rw [refill4]; iexact H4
  iexists (k0_pay1 (iblk m c 0 t) ((dats m o5 0 c).before 2 t d2) (iblk m c 1 t) ((dats m o5 0 c).before 3 t d3) ((dats m o5 0 c).before 4 t d4))
  rw [(cfg0.win 5).fill_congr_cut _ (h5 c t _ _ _ ((cut_before0_2 m o5 c t d2).trans (blockOf_eq m o5 c 2 t))
    ((cut_before0_3 m o5 c t d3).trans (blockOf_eq m o5 c 3 t)) ((cut_before0_4 m o5 c t d4).trans (blockOf_eq m o5 c 4 t)))]
  iexact H5

/-- The body obligation with every window named. -/
theorem body_obligation_named (h5 : Names5 m o5) (c : Dev nD) :
    BodyObligationLoose (dats (F := F) m o5 0 c) (defs₀ (F := F)) Variants.none () Set.univ := fun t => by
  rw [bigSep_W0, bigSep_W0]
  exact sound_body_named m o5 h5 c t

/-! ## The runs -/

set_option backward.isDefEq.respectTransparency.types false in
/-- With every window named: every weakly fair execution terminates, every array of the pipeline ends at what the
    write-backs of the named contents make it, every other unscoped buffer as the region found it. -/
theorem run_named (h5 : Names5 m o5) :
    θ_run defs (onTc (τ := τ) (main (F := F))) (s₀ m ρ) (Pipeline.FramePost cfgs (dats m o5) 0 (V m)) :=
  Pipeline.θ_run_frame cfgs (dats m o5) (0 : Fin 1) launch0 defs₀ Variants.none m ρ main
    (hbody := fun c => body_obligation_named m o5 h5 c) (hshare := fun c => (dats m o5 0 c).share_full fun _ => rfl)
    (howed := fun _ _ => rfl) (V := V m) (hmain := hmain m Variants.none) (hA := A_eq m o5) (hΦ := fun _ _ => rfl)

set_option backward.isDefEq.respectTransparency.types false in
/-- With the output window forgotten: every weakly fair execution terminates and every unscoped buffer that is no
    window's array ends as the region found it. -/
theorem run_forget :
    θ_run defs (onTc (τ := τ) (main (F := F))) (s₀ m ρ)
      (Pipeline.RDat.FramePost (cfgs 0) (fun c => (dats m o5 0 c).toRForget forget5) (V m)) :=
  Pipeline.RDat.θ_run_frame cfgs (0 : Fin 1) launch0 defs₀ Variants.none (fun c => (dats m o5 0 c).toRForget forget5) m ρ main
    (hbody := fun c => (body_obligation_forget m o5 c).toRForget)
    (hshare := fun c => ((dats m o5 0 c).toRForget forget5).share_full fun _ => rfl)
    (howed := fun _ _ => rfl) (V := V m) (hmain := hmain m Variants.none) (hA := A_eq m o5) (hΦ := fun _ _ => rfl)

/-- The frame: the program terminates without a fault and its nine arguments end unchanged. None of them is a
    window's array (the windows stage results of the host operations), so each is among the buffers the run leaves as
    the region found them, and no host operation before the region writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_forget m ρ (fun _ _ _ => Scalar.ofBits .f32 0#32))

end Cert.KernelIdeal.Body

end
-- ==== Proof.Spec.lean ====
/-
  The head of the wide-and-deep recommender, entry by entry, over the extended reals.

  For a batch row r with item number it(r) and hidden vector h(r, ·), and an output unit n with weight row
  W(n, ·) of 10000 + 128 entries and bias b(n), the score is

      σ( Σ_{k < 10000} [it(r) = k] · W(n, k)  +  Σ_{j < 128} h(r, j) · W(n, 10000 + j)  +  b(n) )

  with σ(x) = 1 / (1 + exp(−x)). The first sum is the "wide" part (the indicator row of the item against the
  first 10000 weights), the second the "deep" part (the hidden vector against the last 128 weights).
  Both programs compute exactly this; one as two products added, the other as one product over the two
  parts laid side by side, which is the same sum split at the seam.
-/
import Idealize.ShloMosaic.PureOps.Ideal.Laws
import Idealize.ShloMosaic.Lib.ValueIdx

noncomputable section

open scoped BigOperators

namespace WideDeep

open Idealize.ShloMosaic Idealize.ShloMosaic.ValueIdx

/-- Entry k of the indicator row of the item number `it`: one where the number is k, zero elsewhere
    (in particular a row of zeros when the number is no column at all). -/
def hot (it : BitVec 32) (k : Fin 10000) : EReal := if it = BitVec.ofNat 32 k.val then 1 else 0

/-- The argument of the logistic function for batch row r and output unit n. -/
def scoreAt (items : (⟨1, ![4096]⟩ : Shape).Idx → BitVec 32) (h : (⟨2, ![4096, 128]⟩ : Shape).Idx → EReal)
    (W : (⟨2, ![10000, 10128]⟩ : Shape).Idx → EReal) (b : (⟨1, ![10000]⟩ : Shape).Idx → EReal)
    (r : Fin 4096) (n : Fin 10000) : EReal :=
  ((∑ k : Fin 10000, hot (items (ix1 r)) k * W (ix2 n (⟨k.val, by omega⟩ : Fin 10128)))
    + (∑ j : Fin 128, h (ix2 r j) * W (ix2 n (⟨10000 + j.val, by omega⟩ : Fin 10128))))
    + b (ix1 n)

/-- The head's output for batch row r and output unit n. -/
def headAt (items : (⟨1, ![4096]⟩ : Shape).Idx → BitVec 32) (h : (⟨2, ![4096, 128]⟩ : Shape).Idx → EReal)
    (W : (⟨2, ![10000, 10128]⟩ : Shape).Idx → EReal) (b : (⟨1, ![10000]⟩ : Shape).Idx → EReal)
    (r : Fin 4096) (n : Fin 10000) : EReal :=
  Ideal.logistic (scoreAt items h W b r n)

/-- The whole output array. -/
def head (items : (⟨1, ![4096]⟩ : Shape).Idx → BitVec 32) (h : (⟨2, ![4096, 128]⟩ : Shape).Idx → EReal)
    (W : (⟨2, ![10000, 10128]⟩ : Shape).Idx → EReal) (b : (⟨1, ![10000]⟩ : Shape).Idx → EReal) :
    (⟨2, ![4096, 10000]⟩ : Shape).Idx → EReal :=
  fun i => headAt items h W b (i 0) (i 1)

theorem head_ix2 (items : (⟨1, ![4096]⟩ : Shape).Idx → BitVec 32) (h : (⟨2, ![4096, 128]⟩ : Shape).Idx → EReal)
    (W : (⟨2, ![10000, 10128]⟩ : Shape).Idx → EReal) (b : (⟨1, ![10000]⟩ : Shape).Idx → EReal)
    (r : Fin 4096) (n : Fin 10000) : head items h W b (ix2 r n) = headAt items h W b r n := rfl

/-- A sum over 10128 columns splits at the seam into the first 10000 and the last 128. No finiteness is
    needed: addition on the extended reals is commutative and associative. -/
theorem sum_split (f : Fin 10128 → EReal) :
    (∑ c : Fin 10128, f c) = (∑ k : Fin 10000, f ⟨k.val, by omega⟩) + (∑ j : Fin 128, f ⟨10000 + j.val, by omega⟩) := by
  have h := Fin.sum_univ_add (a := 10000) (b := 128) (fun c : Fin (10000 + 128) => f ⟨c.val, by omega⟩)
  simpa using h

end WideDeep

end
-- ==== Proof.KDefs.lean ====
/-
  The whole-array function the kernel program's result is shown to be, over the five operand arrays as the region
  finds them, and the naming of the output's staging buffer by it.
-/
import proofs.«412227_j71700184039630_1_alg».proof.Proof.Gen.KernelIdeal.Frame
import proofs.«412227_j71700184039630_1_alg».proof.Proof.Spec
import Idealize.ShloMosaic.PureOps.Ideal

set_option maxRecDepth 16384

noncomputable section

open scoped BigOperators

namespace Cert.KernelIdeal.KDefs

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The head over the five operand arrays: item column, hidden activations, wide weights, deep weights, bias row.
    Entry (r, n): the logistic function of the indicator row of item r against row n of the wide weights, plus hidden
    row r against row n of the deep weights, plus entry n of the bias row. -/
def Gv (it : S4096x1.Idx → BitVec 32) (h : S4096x128.Idx → EReal) (ww : S10000x10000.Idx → EReal)
    (wd : S10000x128.Idx → EReal) (bb : S1x10000.Idx → EReal) : S4096x10000.Idx → EReal :=
  fun i => Ideal.logistic (((∑ k : Fin 10000, WideDeep.hot (it (ix2 (i 0) (0 : Fin 1))) k * ww (ix2 (i 1) k))
      + (∑ j : Fin 128, h (ix2 (i 0) j) * wd (ix2 (i 1) j))) + bb (ix2 (0 : Fin 1) (i 1)))

variable (m : (ℓ : Loc nD τ sig) → Buf (Elt Ideal) ℓ)

/-- That function of what the region finds on core c. -/
def GV (c : Dev nD) : S4096x10000.Idx → EReal :=
  Gv (V m c main_v25) (V m c main_v24) (V m c main_v20) (V m c main_v22) (V m c main_v23)

/-- What the output's staging buffer is named to hold after the body at point t: on the part inside the array the
    block of `GV`, filled out with a word nothing reads. -/
def o5 (c : Dev nD) (t : Fin cfg0.N) : S256x384.Idx → Elt Ideal .f32 :=
  (cfg0.win 5).fill (cfg0.grid.coords t) (fun _ => Scalar.ofBits (F := Ideal) .f32 0#32) (((cfg0.win 5).blk t).view.read (Elt Ideal) (GV m c))

end Cert.KernelIdeal.KDefs

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.KVal.lean ====
/-
  The body's value read at one entry, over the extended reals.
-/
import proofs.«412227_j71700184039630_1_alg».proof.Proof.Gen.KernelIdeal.Skeleton
import proofs.«412227_j71700184039630_1_alg».proof.Proof.Spec
import proofs.«412227_j71700184039630_1_alg».proof.Proof.LibRowLayers

noncomputable section

open scoped BigOperators

namespace Cert.KernelIdeal.KVal

open Cert.KernelIdeal Cert.KernelIdeal.Gen Cert.KernelIdeal.Facts₀ Cert.KernelIdeal.Facts
open Idealize.ShloMosaic Idealize.ShloMosaic.ValueIdx

/-- A one-bit word widened to 32 bits and read as a signed integer is the bit itself: the widening fills with
    zeros, so no sign appears. -/
theorem bit_widened : ∀ c : BitVec 1, (c.setWidth 32).toInt = (c.toNat : ℤ) := by decide

/-- The equality test of two words, widened and converted to a float, is one when they are equal and zero when they
    are not. -/
theorem flag_value (a b : BitVec 32) :
    (FloatOps.sitofp (F := Ideal) .f32 ((IntOp.cmpi .eq a b).setWidth 32) : EReal) = if a = b then 1 else 0 := by
  show ((((BitVec.ofBool (a == b)).setWidth 32).toInt : ℝ) : EReal) = _
  rw [bit_widened]
  by_cases h : a = b
  · have e1 : (BitVec.ofBool true).toNat = 1 := rfl
    rw [if_pos h, beq_iff_eq.mpr h, e1]; norm_num
  · have e0 : (BitVec.ofBool false).toNat = 0 := rfl
    rw [if_neg h, beq_eq_false_iff_ne.mpr h, e0]; norm_num

/-- The indicator matrix the body builds: the item column repeated along 10000 columns, compared with the column
    number, the answer widened and converted. At (p, k) it is entry k of the indicator row of item p. -/
theorem onehot_apply (hsc : S256x1.ShapeCasts S256x1) (hbc : S256x1.Broadcasts S256x10000)
    (hio : S256x10000.Iotas .tc 32 [1]) (h1 : 1 < 32) (h16 : FTy.bits .bf16 < FTy.bits .f32)
    (x0 : Vec Ideal S256x1 .i32) (p : Fin 256) (k : Fin 10000) :
    (truncf .bf16 (sitofp (F := Ideal) .f32 (extui 32 (cmpi .eq
        (broadcastTo S256x10000 (shapeCast S256x1 x0 hsc) hbc)
        (iota .tc S256x10000 32 [1] hio)) h1)) h16 : FVec Ideal S256x10000 .bf16) (ix2 p k)
      = WideDeep.hot (x0 (ix2 p (0 : Fin 1))) k := by
  show FloatOps.sitofp (F := Ideal) .f32 ((IntOp.cmpi .eq
      (broadcastTo S256x10000 (shapeCast S256x1 x0 hsc) hbc (ix2 p k))
      (iota .tc S256x10000 32 [1] hio (ix2 p k))).setWidth 32) = _
  rw [RowLayers.broadcastColumn_apply, shapeCast_self, iota_single_apply, flag_value]
  rfl

/-- The first product's dimension numbers are those of a matrix times the transpose of a matrix. -/
theorem dot_wide : dot_S256x10000_S384x10000_S256x384_1_1_0_0_n_n = DotDims.transposedRhs 256 10000 384 := rfl

/-- So are the second product's. -/
theorem dot_deep : dot_S256x128_S384x128_S256x384_1_1_0_0_n_n = DotDims.transposedRhs 256 128 384 := rfl

/-- Entry (p, q) of the body's value: the logistic function of the indicator row of item p against row q of the
    wide weights, plus hidden row p against row q of the deep weights, plus entry q of the bias row. Row q of the two
    weight blocks and entry q of the bias row are all it reads of them. -/
theorem pay_apply (x0 : Vec Ideal S256x1 .i32) (x2 : Vec Ideal S384x10000 .bf16) (x1 : Vec Ideal S256x128 .bf16)
    (x3 : Vec Ideal S384x128 .bf16) (x4 : Vec Ideal S1x384 .f32) (p : Fin 256) (q : Fin 384) :
    k0_pay1 (F := Ideal) x0 x2 x1 x3 x4 (ix2 p q)
      = Ideal.logistic (((∑ k : Fin 10000, WideDeep.hot (x0 (ix2 p (0 : Fin 1))) k * x2 (ix2 q k))
          + (∑ j : Fin 128, x1 (ix2 p j) * x3 (ix2 q j))) + x4 (ix2 (0 : Fin 1) q)) := by
  unfold k0_pay1
  show Ideal.logistic ((matmul (F := Ideal) _ none _ _ _ (ix2 p q) + matmul (F := Ideal) _ none _ _ _ (ix2 p q))
    + broadcastTo _ _ _ (ix2 p q)) = _
  rw [dot_wide, dot_deep, RowLayers.matmulT_apply, RowLayers.matmulT_apply, broadcastTo_1b_ab_apply]
  refine congrArg Ideal.logistic (congrArg₂ (· + ·) (congrArg₂ (· + ·) ?_ ?_) ?_)
  · exact Finset.sum_congr rfl fun k _ =>
      congrArg₂ (· * ·) (onehot_apply _ _ _ _ _ x0 p k) (congrFun (shapeCast_self x2 _) _)
  · exact Finset.sum_congr rfl fun j _ =>
      congrArg₂ (· * ·) (congrFun (shapeCast_self x1 _) _) (congrFun (shapeCast_self x3 _) _)
  · exact congrFun (shapeCast_self x4 _) _

end Cert.KernelIdeal.KVal

end
-- ==== Proof.KBlocks.lean ====
/-
  Inside the array the body's value at grid point t is the output block of the whole-array function: entry (p, q)
  of the block is entry (256·mt + p, 384·n + q) of the array (n = t / 16, mt = t mod 16), and it reads row 256·mt + p
  of the row-tiled operands and row 384·n + q of the operands tiled along the output units — rows inside their
  arrays whenever the entry is.
-/
import proofs.«412227_j71700184039630_1_alg».proof.Proof.BodyI
import proofs.«412227_j71700184039630_1_alg».proof.Proof.KVal
import proofs.«412227_j71700184039630_1_alg».proof.Proof.KDefs

set_option Elab.async false
set_option maxRecDepth 16384

noncomputable section

open scoped BigOperators

namespace Cert.KernelIdeal.KBlocks

open Cert.KernelIdeal Cert.KernelIdeal.Gen Cert.KernelIdeal.KDefs
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

/-- Where the blocks sit, at every grid point t = (n, mt): the two row-tiled inputs' block row is the output's block row
    (mt) and their block column is 0; the two weight matrices' block row is the output's block column (n) and their
    block column is 0; the bias row's block row is 0 and its block column is the output's block column (n). -/
theorem index_facts : ∀ t : Fin cfg0.N,
    (cfg0.win 0).index t 0 = (cfg0.win 5).index t 0 ∧ (cfg0.win 0).index t 1 = 0
    ∧ (cfg0.win 1).index t 0 = (cfg0.win 5).index t 0 ∧ (cfg0.win 1).index t 1 = 0
    ∧ (cfg0.win 2).index t 0 = (cfg0.win 5).index t 1 ∧ (cfg0.win 2).index t 1 = 0
    ∧ (cfg0.win 3).index t 0 = (cfg0.win 5).index t 1 ∧ (cfg0.win 3).index t 1 = 0
    ∧ (cfg0.win 4).index t 0 = 0 ∧ (cfg0.win 4).index t 1 = (cfg0.win 5).index t 1 :=
  (by decide +kernel : ∀ t : Fin grid0.N,
    win0_0.index t 0 = win0_5.index t 0 ∧ win0_0.index t 1 = 0
    ∧ win0_1.index t 0 = win0_5.index t 0 ∧ win0_1.index t 1 = 0
    ∧ win0_2.index t 0 = win0_5.index t 1 ∧ win0_2.index t 1 = 0
    ∧ win0_3.index t 0 = win0_5.index t 1 ∧ win0_3.index t 1 = 0
    ∧ win0_4.index t 0 = 0 ∧ win0_4.index t 1 = win0_5.index t 1)

/-- How much of each block lies inside its array, at every grid point: the output's block has all its 256 rows, and as many
    of its 384 columns as the two weight blocks have rows and the bias block has columns (384, or 16 at the last block
    along the output units); the weight blocks have all their columns and the bias block its one row. -/
theorem size_facts : ∀ t : Fin cfg0.N,
    (cfg0.win 5).xsize (cfg0.grid.coords t) 0 = 256
    ∧ (cfg0.win 2).xsize (cfg0.grid.coords t) 0 = (cfg0.win 5).xsize (cfg0.grid.coords t) 1
    ∧ (cfg0.win 2).xsize (cfg0.grid.coords t) 1 = 10000
    ∧ (cfg0.win 3).xsize (cfg0.grid.coords t) 0 = (cfg0.win 5).xsize (cfg0.grid.coords t) 1
    ∧ (cfg0.win 3).xsize (cfg0.grid.coords t) 1 = 128
    ∧ (cfg0.win 4).xsize (cfg0.grid.coords t) 0 = 1
    ∧ (cfg0.win 4).xsize (cfg0.grid.coords t) 1 = (cfg0.win 5).xsize (cfg0.grid.coords t) 1 :=
  (by decide +kernel : ∀ t : Fin grid0.N,
    win0_5.xsize (grid0.coords t) 0 = 256
    ∧ win0_2.xsize (grid0.coords t) 0 = win0_5.xsize (grid0.coords t) 1
    ∧ win0_2.xsize (grid0.coords t) 1 = 10000
    ∧ win0_3.xsize (grid0.coords t) 0 = win0_5.xsize (grid0.coords t) 1
    ∧ win0_3.xsize (grid0.coords t) 1 = 128
    ∧ win0_4.xsize (grid0.coords t) 0 = 1
    ∧ win0_4.xsize (grid0.coords t) 1 = win0_5.xsize (grid0.coords t) 1)

/-- Entry y of the item column's block at point t is the entry of the array at the block's offset plus y. -/
theorem iblk0_apply (c : Dev nD) (t : Fin cfg0.N) (y : S256x1.Idx) (k : S4096x1.Idx)
    (hk0 : (k 0).val = (cfg0.win 0).index t 0 * 256 + (y 0).val) (hk1 : (k 1).val = (cfg0.win 0).index t 1 * 1 + (y 1).val) :
    (iblk m c 0 t : Vec Ideal S256x1 .i32) y = (V m c main_v25 : S4096x1.Idx → BitVec 32) k := by
  unfold iblk
  rw [View.read_apply]
  show V m c main_v25 _ = V m c main_v25 _
  congr 1
  funext a
  apply Fin.ext
  match a with
  | ⟨0, _⟩ => show (cfg0.win 0).index t 0 * 256 + 1 * (y 0).val = (k 0).val; omega
  | ⟨1, _⟩ => show (cfg0.win 0).index t 1 * 1 + 1 * (y 1).val = (k 1).val; omega

/-- The same for the hidden activations' block. -/
theorem iblk1_apply (c : Dev nD) (t : Fin cfg0.N) (y : S256x128.Idx) (k : S4096x128.Idx)
    (hk0 : (k 0).val = (cfg0.win 1).index t 0 * 256 + (y 0).val) (hk1 : (k 1).val = (cfg0.win 1).index t 1 * 128 + (y 1).val) :
    (iblk m c 1 t : Vec Ideal S256x128 .bf16) y = (V m c main_v24 : S4096x128.Idx → EReal) k := by
  unfold iblk
  rw [View.read_apply]
  show V m c main_v24 _ = V m c main_v24 _
  congr 1
  funext a
  apply Fin.ext
  match a with
  | ⟨0, _⟩ => show (cfg0.win 1).index t 0 * 256 + 1 * (y 0).val = (k 0).val; omega
  | ⟨1, _⟩ => show (cfg0.win 1).index t 1 * 128 + 1 * (y 1).val = (k 1).val; omega

/-- The same for the part of the wide weights' block inside the array. -/
theorem iblk2_apply (c : Dev nD) (t : Fin cfg0.N) (y : ((cfg0.win 2).xblock (cfg0.grid.coords t)).Idx) (k : S10000x10000.Idx)
    (hk0 : (k 0).val = (cfg0.win 2).index t 0 * 384 + (y 0).val) (hk1 : (k 1).val = (cfg0.win 2).index t 1 * 10000 + (y 1).val) :
    iblk m c 2 t y = (V m c main_v20 : S10000x10000.Idx → EReal) k := by
  unfold iblk
  rw [View.read_apply]
  show V m c main_v20 _ = V m c main_v20 _
  congr 1
  funext a
  apply Fin.ext
  match a with
  | ⟨0, _⟩ => show (cfg0.win 2).index t 0 * 384 + 1 * (y 0).val = (k 0).val; omega
  | ⟨1, _⟩ => show (cfg0.win 2).index t 1 * 10000 + 1 * (y 1).val = (k 1).val; omega

/-- The same for the part of the deep weights' block inside the array. -/
theorem iblk3_apply (c : Dev nD) (t : Fin cfg0.N) (y : ((cfg0.win 3).xblock (cfg0.grid.coords t)).Idx) (k : S10000x128.Idx)
    (hk0 : (k 0).val = (cfg0.win 3).index t 0 * 384 + (y 0).val) (hk1 : (k 1).val = (cfg0.win 3).index t 1 * 128 + (y 1).val) :
    iblk m c 3 t y = (V m c main_v22 : S10000x128.Idx → EReal) k := by
  unfold iblk
  rw [View.read_apply]
  show V m c main_v22 _ = V m c main_v22 _
  congr 1
  funext a
  apply Fin.ext
  match a with
  | ⟨0, _⟩ => show (cfg0.win 3).index t 0 * 384 + 1 * (y 0).val = (k 0).val; omega
  | ⟨1, _⟩ => show (cfg0.win 3).index t 1 * 128 + 1 * (y 1).val = (k 1).val; omega

/-- The same for the part of the bias row's block inside the array. -/
theorem iblk4_apply (c : Dev nD) (t : Fin cfg0.N) (y : ((cfg0.win 4).xblock (cfg0.grid.coords t)).Idx) (k : S1x10000.Idx)
    (hk0 : (k 0).val = (cfg0.win 4).index t 0 * 1 + (y 0).val) (hk1 : (k 1).val = (cfg0.win 4).index t 1 * 384 + (y 1).val) :
    iblk m c 4 t y = (V m c main_v23 : S1x10000.Idx → EReal) k := by
  unfold iblk
  rw [View.read_apply]
  show V m c main_v23 _ = V m c main_v23 _
  congr 1
  funext a
  apply Fin.ext
  match a with
  | ⟨0, _⟩ => show (cfg0.win 4).index t 0 * 1 + 1 * (y 0).val = (k 0).val; omega
  | ⟨1, _⟩ => show (cfg0.win 4).index t 1 * 384 + 1 * (y 1).val = (k 1).val; omega

/-- The part of the output's block inside the array, read off any whole output array. -/
theorem blk5_read (A : S4096x10000.Idx → EReal) (t : Fin cfg0.N) (y : ((cfg0.win 5).xblock (cfg0.grid.coords t)).Idx) (k : S4096x10000.Idx)
    (hk0 : (k 0).val = (cfg0.win 5).index t 0 * 256 + (y 0).val) (hk1 : (k 1).val = (cfg0.win 5).index t 1 * 384 + (y 1).val) :
    ((cfg0.win 5).blk t).view.read (Elt Ideal) A y = A k := by
  rw [View.read_apply]
  show A _ = A _
  congr 1
  funext a
  apply Fin.ext
  match a with
  | ⟨0, _⟩ => show (cfg0.win 5).index t 0 * 256 + 1 * (y 0).val = (k 0).val; omega
  | ⟨1, _⟩ => show (cfg0.win 5).index t 1 * 384 + 1 * (y 1).val = (k 1).val; omega

/-- Contents of a block that agree with B on the part the transfer moves read as B at every entry of that part. -/
theorem cut_apply_of_lt {α : Type} {G : Pipeline.Grid} (w : Window sig G) (i : G.Coords) (X : w.block.Idx → α)
    (B : (w.xblock i).Idx → α) (h : w.cut i X = B) (z : w.block.Idx) (hz : ∀ a, (z a).val < w.xsize i a) :
    X z = B (fun a => ⟨(z a).val, hz a⟩) := by
  rw [← h]

/-- Inside the array the body's value is the block of `GV`, whatever the clipped inputs' buffers hold outside it. -/
theorem names5 : Body.Names5 m (o5 m) := by
  intro c t x2 x3 x4 h2 h3 h4
  -- on the part inside the array the named contents are the block of `GV`
  unfold o5
  rw [Window.cut_fill]
  funext j
  obtain ⟨i00, i01, i10, i11, i20, i21, i30, i31, i40, i41⟩ := index_facts t
  obtain ⟨s50, s20, s21, s30, s31, s40, s41⟩ := size_facts t
  -- entry j of that part is entry (p, q) of the whole block, p = j 0 < 256, q = j 1 < 384
  have hj0 : (j 0).val < (cfg0.win 5).xsize (cfg0.grid.coords t) 0 := (j 0).isLt
  have hj1 : (j 1).val < (cfg0.win 5).xsize (cfg0.grid.coords t) 1 := (j 1).isLt
  have hp : (j 0).val < 256 := by omega
  have hq : (j 1).val < 384 := Nat.lt_of_lt_of_le hj1 ((cfg0.win 5).xsize_le (cfg0.grid.coords t) 1)
  have hx : (cfg0.win 5).xinj (cfg0.grid.coords t) j = ix2 (⟨(j 0).val, hp⟩ : Fin 256) (⟨(j 1).val, hq⟩ : Fin 384) := by
    funext a
    match a with
    | ⟨0, _⟩ => rfl
    | ⟨1, _⟩ => rfl
  show k0_pay1 (F := Ideal) (iblk m c 0 t) x2 (iblk m c 1 t) x3 x4 ((cfg0.win 5).xinj (cfg0.grid.coords t) j) = _
  rw [hx, KVal.pay_apply]
  -- the entry of the whole output array this entry of the block is
  have e0 : ((((cfg0.win 5).rect t).emb j : S4096x10000.Idx) 0).val = (cfg0.win 5).index t 0 * 256 + (j 0).val :=
    Window.rect_emb_val (cfg0.win 5) t j 0
  have e1 : ((((cfg0.win 5).rect t).emb j : S4096x10000.Idx) 1).val = (cfg0.win 5).index t 1 * 384 + (j 1).val :=
    Window.rect_emb_val (cfg0.win 5) t j 1
  generalize (((cfg0.win 5).rect t).emb j : S4096x10000.Idx) = I at e0 e1
  rw [blk5_read (GV m c) t j I e0 e1]
  unfold GV Gv
  refine congrArg Ideal.logistic (congrArg₂ (· + ·) (congrArg₂ (· + ·) (Finset.sum_congr rfl fun k _ => ?_) (Finset.sum_congr rfl fun l _ => ?_)) ?_)
  · -- the indicator entry of item row p against entry (q, k) of the wide weights
    have hz : ∀ a, ((ix2 (⟨(j 1).val, hq⟩ : Fin 384) k : S384x10000.Idx) a).val < (cfg0.win 2).xsize (cfg0.grid.coords t) a := fun a => by
      match a with
      | ⟨0, _⟩ => show (j 1).val < (cfg0.win 2).xsize (cfg0.grid.coords t) 0; omega
      | ⟨1, _⟩ => show k.val < (cfg0.win 2).xsize (cfg0.grid.coords t) 1; have := k.isLt; omega
    rw [iblk0_apply m c t (ix2 ⟨(j 0).val, hp⟩ 0) (ix2 (I 0) 0)
        (by show (I 0).val = (cfg0.win 0).index t 0 * 256 + (j 0).val; omega)
        (by show (0 : ℕ) = (cfg0.win 0).index t 1 * 1 + 0; omega),
      cut_apply_of_lt (cfg0.win 2) (cfg0.grid.coords t) x2 _ h2 (ix2 ⟨(j 1).val, hq⟩ k) hz,
      iblk2_apply m c t _ (ix2 (I 1) k)
        (by show (I 1).val = (cfg0.win 2).index t 0 * 384 + (j 1).val; omega)
        (by show k.val = (cfg0.win 2).index t 1 * 10000 + k.val; omega)]
  · -- entry (p, l) of the hidden activations against entry (q, l) of the deep weights
    have hz : ∀ a, ((ix2 (⟨(j 1).val, hq⟩ : Fin 384) l : S384x128.Idx) a).val < (cfg0.win 3).xsize (cfg0.grid.coords t) a := fun a => by
      match a with
      | ⟨0, _⟩ => show (j 1).val < (cfg0.win 3).xsize (cfg0.grid.coords t) 0; omega
      | ⟨1, _⟩ => show l.val < (cfg0.win 3).xsize (cfg0.grid.coords t) 1; have := l.isLt; omega
    rw [iblk1_apply m c t (ix2 ⟨(j 0).val, hp⟩ l) (ix2 (I 0) l)
        (by show (I 0).val = (cfg0.win 1).index t 0 * 256 + (j 0).val; omega)
        (by show l.val = (cfg0.win 1).index t 1 * 128 + l.val; omega),
      cut_apply_of_lt (cfg0.win 3) (cfg0.grid.coords t) x3 _ h3 (ix2 ⟨(j 1).val, hq⟩ l) hz,
      iblk3_apply m c t _ (ix2 (I 1) l)
        (by show (I 1).val = (cfg0.win 3).index t 0 * 384 + (j 1).val; omega)
        (by show l.val = (cfg0.win 3).index t 1 * 128 + l.val; omega)]
  · -- entry q of the bias row
    have hz : ∀ a, ((ix2 (0 : Fin 1) (⟨(j 1).val, hq⟩ : Fin 384) : S1x384.Idx) a).val < (cfg0.win 4).xsize (cfg0.grid.coords t) a := fun a => by
      match a with
      | ⟨0, _⟩ => show (0 : ℕ) < (cfg0.win 4).xsize (cfg0.grid.coords t) 0; omega
      | ⟨1, _⟩ => show (j 1).val < (cfg0.win 4).xsize (cfg0.grid.coords t) 1; omega
    rw [cut_apply_of_lt (cfg0.win 4) (cfg0.grid.coords t) x4 _ h4 (ix2 0 ⟨(j 1).val, hq⟩) hz,
      iblk4_apply m c t _ (ix2 0 (I 1))
        (by show (0 : ℕ) = (cfg0.win 4).index t 0 * 1 + 0; omega)
        (by show (I 1).val = (cfg0.win 4).index t 1 * 384 + (j 1).val; omega)]

end Cert.KernelIdeal.KBlocks

end
-- ==== Proof.KCover.lean ====
/-
  The output blocks cover the result array: entry (r, n) lies in the block of the grid point with unit tile
  n / 384 and batch tile r / 256, cut at the array's end.
-/
import proofs.«412227_j71700184039630_1_alg».proof.Proof.Gen.KernelIdeal.Frame

set_option maxRecDepth 16384

noncomputable section

open scoped BigOperators

namespace Cert.KernelIdeal.KCover

open Cert.KernelIdeal Cert.KernelIdeal.Gen
open Idealize.ShloMosaic Idealize.ShloMosaic.TcCoe Idealize.SL.Sem
open Idealize.ShloMosaic.Pipeline (Dat Cfg Window)

/-- Window 5's block index and the sizes of its block's part inside the array, in closed form at every point
    `t` of the 27 × 16 grid: the batch tile `t % 16`, the unit tile `t / 16`, all 256 rows, and 384 columns but
    for the last unit tile, which the array's end cuts to `10000 - 384 * 26 = 16`. -/
theorem closed5 : ∀ t : Fin grid0.N, win0_5.index t 0 = t.val % 16 ∧ win0_5.index t 1 = t.val / 16 ∧
    win0_5.xsize (grid0.coords t) 0 = 256 ∧ win0_5.xsize (grid0.coords t) 1 = min 384 (10000 - 384 * (t.val / 16)) := by
  decide +kernel

/-- The cover, stated on the array's own index type: entry `(r, n)` lies in the block of the point with unit
    tile `n / 384` and batch tile `r / 256`. Per axis, the block's offset is the tile number times the tile size,
    so `r` lies in `[r / 256 * 256, r / 256 * 256 + 256)` and `n` in `[n / 384 * 384, n / 384 * 384 + 384)`, and
    below the array's end `10000` in the last, cut tile. -/
theorem cover5_idx (i : S4096x10000.Idx) :
    ∃ t : Fin cfg0.N, (cfg0.win 5).flush t = true ∧ i ∈ ((View.whole main_v26).slice ((cfg0.win 5).rect t)).set := by
  have h0 : (i 0).val < 4096 := (i 0).isLt
  have h1 : (i 1).val < 10000 := (i 1).isLt
  obtain ⟨t, ht⟩ : ∃ t : Fin grid0.N, t.val = (i 1).val / 384 * 16 + (i 0).val / 256 :=
    ⟨⟨(i 1).val / 384 * 16 + (i 0).val / 256, by show _ < 432; omega⟩, rfl⟩
  refine ⟨t, flush0_5 t, ?_⟩
  rw [View.set_slice_whole, Rect.mem_set_unit]
  obtain ⟨e0, e1, x0, x1⟩ := closed5 t
  intro a
  match a with
  | ⟨0, _⟩ =>
    change win0_5.index t 0 * 256 ≤ (i 0).val ∧ (i 0).val < win0_5.index t 0 * 256 + win0_5.xsize (grid0.coords t) 0
    rw [e0, x0]; omega
  | ⟨1, _⟩ =>
    change win0_5.index t 1 * 384 ≤ (i 1).val ∧ (i 1).val < win0_5.index t 1 * 384 + win0_5.xsize (grid0.coords t) 1
    rw [e1, x1]; omega

/-- Every entry of the result array lies in the output block of some grid point (and every point writes its block back). -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  exact cover5_idx i

end Cert.KernelIdeal.KCover

end
-- ==== Proof.KRun.lean ====
/-
  The kernel program's run with its result named, over the extended reals.

  The output block of grid point t (unit tile n = t / 16, batch tile mt = t mod 16) is, on its part inside the
  array, the block of ONE whole-array function of what the region finds in its operand arrays; the blocks cover the
  array; so the result array ends holding that function.
-/
import proofs.«412227_j71700184039630_1_alg».proof.Proof.BodyI
import proofs.«412227_j71700184039630_1_alg».proof.Proof.KDefs
import proofs.«412227_j71700184039630_1_alg».proof.Proof.KBlocks
import proofs.«412227_j71700184039630_1_alg».proof.Proof.KCover

set_option maxRecDepth 16384

noncomputable section

namespace Cert.KernelIdeal.KRun

open Cert.KernelIdeal Cert.KernelIdeal.Gen Cert.KernelIdeal.KDefs
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The result array after the run. -/
theorem final5 (c : Dev nD) : (Body.dats m (o5 m) 0 c).arrAt 5 cfg0.N = GV m c :=
  (Body.dats m (o5 m) 0 c).arrAt_eq_of_cover 5 (GV m c)
    (fun t _ => by
      show (cfg0.win 5).cut (cfg0.grid.coords t) ((Body.dats m (o5 m) 0 c).after 5 t) = _
      rw [Body.after0_5]; unfold o5; rw [Window.cut_fill])
    (KCover.cover5 c)

/-- Every weakly fair execution of the kernel's program terminates with the result array at `GV` and the nine
    arguments unchanged. -/
theorem run : θ_run defs (onTc (τ := τ) (main (F := Ideal))) ⟨m, fun _ => 0, ρ⟩ (fun r => ∀ c : Dev nD,
      r.2.mem ((c.tc : Thread nD τ).loc main_v26) = GV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 5).trans (final5 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (Body.run_named m ρ (o5 m) (KBlocks.names5 m))

end Cert.KernelIdeal.KRun

end
-- ==== Proof.HostDefs.lean ====
/-
  The host computation in front of the head, named piece by piece (at any float instance).

  From the interactions the two index columns are cut (users, items). Each indexes its embedding table the way
  `take` does: a negative index is wrapped by the table's length, the row is gathered, and a row whose wrapped index
  still falls outside the table is replaced by the fill word. The reference indexes the same tables without the
  fill. The two gathered rows laid side by side go through two affine layers, each followed by max(·, 0).
-/
import proofs.«412227_j71700184039630_1_alg».proof.Proof.Gen.KernelIdeal

noncomputable section

namespace Cert.KernelIdeal.HostDefs

open Cert.KernelIdeal Cert.KernelIdeal.Facts₀ Cert.KernelIdeal.Facts Idealize.ShloMosaic

variable {F : FTy → Type} [FloatOps F]

/-- Column 0 of the interactions: the user numbers. -/
def usersOf (a0 : IVec S4096x2 32) : IVec S4096 32 :=
  shapeCast S4096 (extractStridedSlice S4096x1 ![0, 0] a0 slices_S4096x2_S4096x1_0_0) shapeCasts_S4096x1_S4096

/-- Column 1 of the interactions: the item numbers. -/
def itemsOf (a0 : IVec S4096x2 32) : IVec S4096 32 :=
  shapeCast S4096 (extractStridedSlice S4096x1 ![0, 1] a0 slices_S4096x2_S4096x1_0_1) shapeCasts_S4096x1_S4096

/-- An index vector with its negative entries wrapped by the table's length n, as a column. -/
def wrapCol (n : BitVec 32) (u : IVec S4096 32) : IVec S4096x1 32 :=
  broadcastInDim S4096x1 ![0] bcast_S4096_S4096x1_0
    (select (cmpi .slt u (broadcastInDim S4096 ![] bcast_S_S4096 (constantI S_ 32 0#32)))
      (addi u (broadcastInDim S4096 ![] bcast_S_S4096 (constantI S_ 32 n))) u)

/-- Per row: does the (wrapped) index lie in 0 … hi? -/
def inRange (hi : BitVec 32) (col : IVec S4096x1 32) : IVec S4096 1 :=
  Host.reduce IntOp.andi
    (andi (cmpi .sge col (broadcastInDim S4096x1 ![] bcast_S_S4096x1 (constantI S_ 32 0#32)))
      (cmpi .sle col (broadcastInDim S4096x1 ![0, 1] bcast_S1x1_S4096x1_0_1 (broadcastInDim S1x1 ![1] bcast_S1_S1x1_1 (constantI S1 32 hi)))))
    (constantI S_ 1 1#1) reducesTo_S4096x1_S4096_d1 h_S_

/-- Gathered rows, those of out-of-range indices replaced by the fill word. -/
def filled (g : FVec F S4096x32 .f32) (ok : IVec S4096 1) : FVec F S4096x32 .f32 :=
  select (broadcastInDim S4096x32 ![0] bcast_S4096_S4096x32_0 ok) g
    (broadcastInDim S4096x32 ![] bcast_S_S4096x32 (constant S_ .f32 0x7FC00000#32))

/-- Rows of the user table at the wrapped user numbers. -/
def userRows (a1 : FVec F S100000x32 .f32) (a0 : IVec S4096x2 32) : FVec F S4096x32 .f32 :=
  Host.gather gather_S100000x32_S4096x1_S4096x32_1_0_n_n_0_1_132 a1 (wrapCol 100000#32 (usersOf a0))

/-- Rows of the item table at the wrapped item numbers. -/
def itemRows (a2 : FVec F S10000x32 .f32) (a0 : IVec S4096x2 32) : FVec F S4096x32 .f32 :=
  Host.gather gather_S10000x32_S4096x1_S4096x32_1_0_n_n_0_1_132 a2 (wrapCol 10000#32 (itemsOf a0))

/-- The two-layer network on the two embeddings laid side by side. -/
def mlp (eu ei : FVec F S4096x32 .f32) (a3 : FVec F S128x64 .f32) (a4 : FVec F S128 .f32)
    (a5 : FVec F S128x128 .f32) (a6 : FVec F S128 .f32) : FVec F S4096x128 .f32 :=
  maximumf
    (addf
      (Host.dotGeneral dot_S4096x128_S128x128_S4096x128_1_0_0_1_n_n none
        (maximumf
          (addf
            (Host.dotGeneral dot_S4096x64_S64x128_S4096x128_1_0_0_1_n_n none
              (concatenate S4096x64 1 [⟨S4096x32, eu⟩, ⟨S4096x32, ei⟩] concatenates_S4096x32_S4096x32_S4096x64_d1)
              (transpose S64x128 [1, 0] a3 transposes_S128x64_S64x128_1_0))
            (broadcastInDim S4096x128 ![0, 1] bcast_S1x128_S4096x128_0_1 (broadcastInDim S1x128 ![1] bcast_S128_S1x128_1 a4)))
          (broadcastInDim S4096x128 ![] bcast_S_S4096x128 (constant S_ .f32 0x00000000#32)))
        (transpose S128x128 [1, 0] a5 transposes_S128x128_S128x128_1_0))
      (broadcastInDim S4096x128 ![0, 1] bcast_S1x128_S4096x128_0_1 (broadcastInDim S1x128 ![1] bcast_S128_S1x128_1 a6)))
    (broadcastInDim S4096x128 ![] bcast_S_S4096x128 (constant S_ .f32 0x00000000#32))

/-- The hidden activations as the kernel's program computes them (with the fill). -/
def hiddenK (a0 : IVec S4096x2 32) (a1 : FVec F S100000x32 .f32) (a2 : FVec F S10000x32 .f32) (a3 : FVec F S128x64 .f32)
    (a4 : FVec F S128 .f32) (a5 : FVec F S128x128 .f32) (a6 : FVec F S128 .f32) : FVec F S4096x128 .f32 :=
  mlp (filled (userRows a1 a0) (inRange 99999#32 (wrapCol 100000#32 (usersOf a0))))
    (filled (itemRows a2 a0) (inRange 9999#32 (wrapCol 10000#32 (itemsOf a0)))) a3 a4 a5 a6

/-- The hidden activations without the fill (what the reference computes). -/
def hidden (a0 : IVec S4096x2 32) (a1 : FVec F S100000x32 .f32) (a2 : FVec F S10000x32 .f32) (a3 : FVec F S128x64 .f32)
    (a4 : FVec F S128 .f32) (a5 : FVec F S128x128 .f32) (a6 : FVec F S128 .f32) : FVec F S4096x128 .f32 :=
  mlp (userRows a1 a0) (itemRows a2 a0) a3 a4 a5 a6

end Cert.KernelIdeal.HostDefs

end
-- ==== Proof.HostK.lean ====
/-
  What the region finds in its five operand arrays: each as a term of the program's arguments.

  The host operations in front of the region run in order, each writing one array and leaving the others as they
  were. What an array holds at the end is therefore the composition of the operations on the path that leads to it,
  read back to the program's arguments. Four of the five operands have a path of one to three operations. The
  hidden activations have a long one, and it passes through a concatenation of two computed arrays; for it the
  line of operations is cut in two where the two table lookups end: the first part leaves the two filled row
  blocks and does not touch the layers' weights and biases, and the second part, read over ANY contents of the
  arrays at the cut, is the two-layer network followed by the narrowing.
-/
import proofs.«412227_j71700184039630_1_alg».proof.Proof.Gen.KernelIdeal.Frame
import proofs.«412227_j71700184039630_1_alg».proof.Proof.HostDefs
import Idealize.ShloMosaic.Lib.StableHlo.Run
import Idealize.ShloMosaic.PureOps.Ideal

noncomputable section

namespace Cert.KernelIdeal.HostK

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- Operand 0: the item numbers as a column. Column 1 of the interactions is cut out, flattened to a vector, and
    that vector is laid out again as a column: two reshapes over one slice. -/
theorem V_items (c : Dev nD) : (V m c main_v25 : S4096x1.Idx → BitVec 32)
    = shapeCast S4096x1 (HostDefs.itemsOf (m ((c : Thread nD τ).loc main_arg0))) shapeCasts_S4096_S4096x1 := by
  dsimp only [Gen.V]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results_simp
  rfl

/-! ### The hidden activations: the line of operations cut where the lookups end -/

/-- At the cut, the user lookup's result: the rows of the user table at the wrapped user numbers, a row whose
    wrapped number still lies outside the table replaced by the fill word. -/
theorem cut_users (c : Dev nD) :
    (after hostOps0_2 (after hostOps0_1 (after hostOps0 (fun b => m (c, b)))) (Proc.devRef .tc main_v4) : S4096x32.Idx → EReal)
    = HostDefs.filled (F := Ideal) (HostDefs.userRows (F := Ideal) (m ((c : Thread nD τ).loc main_arg1)) (m ((c : Thread nD τ).loc main_arg0)))
        (HostDefs.inRange 99999#32 (HostDefs.wrapCol 100000#32 (HostDefs.usersOf (m ((c : Thread nD τ).loc main_arg0))))) := by
  simp only [Gen.hostOps0, Gen.hostOps0_1, Gen.hostOps0_2]
  after_results_simp
  -- each intermediate array is read at the type it was written at: the transports along these equalities are identities
  simp only [TRef.ofBuf, TRef.toBuf, cast_eq]
  rfl

/-- At the cut, the item lookup's result: the same with the item table and the item numbers. -/
theorem cut_items (c : Dev nD) :
    (after hostOps0_2 (after hostOps0_1 (after hostOps0 (fun b => m (c, b)))) (Proc.devRef .tc main_v5) : S4096x32.Idx → EReal)
    = HostDefs.filled (F := Ideal) (HostDefs.itemRows (F := Ideal) (m ((c : Thread nD τ).loc main_arg2)) (m ((c : Thread nD τ).loc main_arg0)))
        (HostDefs.inRange 9999#32 (HostDefs.wrapCol 10000#32 (HostDefs.itemsOf (m ((c : Thread nD τ).loc main_arg0))))) := by
  simp only [Gen.hostOps0, Gen.hostOps0_1, Gen.hostOps0_2]
  after_results_simp
  simp only [TRef.ofBuf, TRef.toBuf, cast_eq]
  rfl

/-- No operation before the cut writes the first layer's weights … -/
theorem cut_arg3 (c : Dev nD) :
    after hostOps0_2 (after hostOps0_1 (after hostOps0 (fun b => m (c, b)))) (Proc.devRef .tc main_arg3) = m ((c : Thread nD τ).loc main_arg3) := by
  simp only [Gen.hostOps0, Gen.hostOps0_1, Gen.hostOps0_2]
  after_results_simp
/-- … nor its bias … -/
theorem cut_arg4 (c : Dev nD) :
    after hostOps0_2 (after hostOps0_1 (after hostOps0 (fun b => m (c, b)))) (Proc.devRef .tc main_arg4) = m ((c : Thread nD τ).loc main_arg4) := by
  simp only [Gen.hostOps0, Gen.hostOps0_1, Gen.hostOps0_2]
  after_results_simp
/-- … nor the second layer's weights … -/
theorem cut_arg5 (c : Dev nD) :
    after hostOps0_2 (after hostOps0_1 (after hostOps0 (fun b => m (c, b)))) (Proc.devRef .tc main_arg5) = m ((c : Thread nD τ).loc main_arg5) := by
  simp only [Gen.hostOps0, Gen.hostOps0_1, Gen.hostOps0_2]
  after_results_simp
/-- … nor its bias. -/
theorem cut_arg6 (c : Dev nD) :
    after hostOps0_2 (after hostOps0_1 (after hostOps0 (fun b => m (c, b)))) (Proc.devRef .tc main_arg6) = m ((c : Thread nD τ).loc main_arg6) := by
  simp only [Gen.hostOps0, Gen.hostOps0_1, Gen.hostOps0_2]
  after_results_simp

/-- The operations after the cut, over ANY contents `W` of the arrays at the cut: the two row blocks laid side by
    side, through the two affine layers each followed by max(·, 0), then narrowed. The two row blocks and the layers'
    weights and biases enter as whatever `W` holds in their arrays. -/
theorem tail_of (W : Valuation τ sig (Elt Ideal)) :
    (after hostOps0_7 (after hostOps0_6 (after hostOps0_5 (after hostOps0_4 (after hostOps0_3 W)))) (Proc.devRef .tc main_v24) : S4096x128.Idx → EReal)
    = truncf (F := Ideal) .bf16 (HostDefs.mlp (F := Ideal) (W (Proc.devRef .tc main_v4)) (W (Proc.devRef .tc main_v5))
        (W (Proc.devRef .tc main_arg3)) (W (Proc.devRef .tc main_arg4)) (W (Proc.devRef .tc main_arg5)) (W (Proc.devRef .tc main_arg6))) bitsLt_bf16_f32 := by
  simp only [Gen.hostOps0_3, Gen.hostOps0_4, Gen.hostOps0_5, Gen.hostOps0_6, Gen.hostOps0_7]
  after_results_simp
  simp only [TRef.ofBuf, TRef.toBuf, cast_eq]
  rfl

/-- Operand 1: the hidden activations (narrowed, which changes nothing over the extended reals). Running a line of
    operations is running its first part and then its second from what the first left; so the tail is read at the
    contents the lookups leave, and those are the six facts above. -/
theorem V_hidden (c : Dev nD) : (V m c main_v24 : S4096x128.Idx → EReal)
    = truncf (F := Ideal) .bf16 (HostDefs.hiddenK (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))) bitsLt_bf16_f32 := by
  dsimp only [Gen.V]
  simp only [List.flatten_cons, List.flatten_nil, List.append_nil]
  rw [after_append, after_append, after_append, after_append, after_append, after_append, after_append]
  rw [tail_of]
  rw [cut_users, cut_items, cut_arg3, cut_arg4, cut_arg5, cut_arg6]
  rfl

/-- Operand 2: the first 10000 columns of the head's weights. -/
theorem V_wide (c : Dev nD) : (V m c main_v20 : S10000x10000.Idx → EReal)
    = truncf (F := Ideal) .bf16 (extractStridedSlice S10000x10000 ![0, 0] (m ((c : Thread nD τ).loc main_arg7) : FVec Ideal S10000x10128 .f32) slices_S10000x10128_S10000x10000_0_0) bitsLt_bf16_f32 := by
  dsimp only [Gen.V]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results_simp

/-- Operand 3: the last 128 columns of the head's weights. -/
theorem V_deep (c : Dev nD) : (V m c main_v22 : S10000x128.Idx → EReal)
    = truncf (F := Ideal) .bf16 (extractStridedSlice S10000x128 ![0, 10000] (m ((c : Thread nD τ).loc main_arg7) : FVec Ideal S10000x10128 .f32) slices_S10000x10128_S10000x128_0_10000) bitsLt_bf16_f32 := by
  dsimp only [Gen.V]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results_simp

/-- Operand 4: the head's bias as one row. -/
theorem V_bias (c : Dev nD) : (V m c main_v23 : S1x10000.Idx → EReal)
    = shapeCast S1x10000 (m ((c : Thread nD τ).loc main_arg8)) shapeCasts_S10000_S1x10000 := by
  dsimp only [Gen.V]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results_simp
  rfl

end Cert.KernelIdeal.HostK

end
-- ==== Proof.PreDecode.lean ====
/-
  Under the precondition every user number lies in 0 … 99999 and every item number in 0 … 9999; then no index is
  wrapped, every row passes the range test, and the fill never replaces a gathered row.
-/
import proofs.«412227_j71700184039630_1_alg».proof.Defs
import proofs.«412227_j71700184039630_1_alg».proof.Proof.Gen.Pre_finite_inputs
import proofs.«412227_j71700184039630_1_alg».proof.Proof.HostDefs
import Idealize.ShloMosaic.Lib.ReduceAll
import Idealize.ShloMosaic.Lib.ValueIdx

noncomputable section

namespace Cert.KernelIdeal.PreDecode

open Cert.KernelIdeal Cert.KernelIdeal.Facts₀ Cert.KernelIdeal.Facts
open Idealize.ShloMosaic Idealize.ShloMosaic.TcCoe Idealize.SL.Sem

/-! ## A conjunction of ones is one -/

/-- A left fold by `and` that starts at 1 and meets only 1s ends at 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], init, h, _ => h
  | a :: l, init, h, hl => by
    rw [List.foldl_cons]
    refine foldl_andi_ones f l _ ?_ (fun n hn => hl n (List.mem_cons_of_mem _ hn))
    rw [h, hl a List.mem_cons_self]; rfl

/-- A reduction by `and`, from the constant 1, of an array of ones is 1 at every result index. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-! ## One word in range -/

/-- A word that is at least 0 is not below 0: the wrap's condition is the bit 0. -/
theorem not_neg_of_nonneg (w : BitVec 32) (h0 : IntOp.cmpi .sge w 0#32 = 1#1) : IntOp.cmpi .slt w 0#32 = 0#1 := by
  apply ValueIdx.eq_zero_of_ne_one
  intro h
  rw [IntOp.cmpi_slt] at h
  rw [IntOp.cmpi_sge] at h0
  omega

/-- A word below n is at most n − 1 (signed; n − 1 written as the word hi). -/
theorem le_pred_of_lt (w n hi : BitVec 32) (hn : n.toInt = hi.toInt + 1) (h1 : IntOp.cmpi .slt w n = 1#1) :
    IntOp.cmpi .sle w hi = 1#1 := by
  rw [IntOp.cmpi_slt] at h1
  rw [IntOp.cmpi_sle]
  omega

/-! ## The range test on a column of in-range words -/

/-- Where every entry of u is at least 0, the wrap (add n to the negative entries) changes nothing. -/
theorem wrap_id (n : BitVec 32) (u : IVec S4096 32) (h0 : ∀ i, IntOp.cmpi .sge (u i) 0#32 = 1#1) (k : S4096.Idx) :
    select (cmpi .slt u (broadcastInDim S4096 ![] bcast_S_S4096 (constantI S_ 32 0#32)))
      (addi u (broadcastInDim S4096 ![] bcast_S_S4096 (constantI S_ 32 n))) u k = u k := by
  rw [ValueIdx.select_apply]
  show Scalar.select (IntOp.cmpi .slt (u k) 0#32) _ _ = _
  rw [not_neg_of_nonneg _ (h0 k), ValueIdx.select_zero]

/-- Then each entry of the wrapped column is an entry of u. -/
theorem wrapCol_entry (n : BitVec 32) (u : IVec S4096 32) (h0 : ∀ i, IntOp.cmpi .sge (u i) 0#32 = 1#1) (i : S4096x1.Idx) :
    ∃ k, HostDefs.wrapCol n u i = u k :=
  have key : ∀ (f : S4096.Idx → BitVec 32), (∀ k, f k = u k) →
      ∃ k, broadcastInDim S4096x1 ![0] bcast_S4096_S4096x1_0 f i = u k := fun f hf => ⟨_, hf _⟩
  key _ (wrap_id n u h0)

/-- When every entry of u lies in 0 … n − 1 (n − 1 written as the word hi), every row passes the test against 0 … hi. -/
theorem inRange_wrapCol (n hi : BitVec 32) (hn : n.toInt = hi.toInt + 1) (u : IVec S4096 32)
    (h0 : ∀ i, IntOp.cmpi .sge (u i) 0#32 = 1#1) (h1 : ∀ i, IntOp.cmpi .slt (u i) n = 1#1) :
    HostDefs.inRange hi (HostDefs.wrapCol n u) = fun _ => 1#1 := by
  funext j
  unfold HostDefs.inRange
  refine reduce_andi_ones _ _ _ _ (fun _ => rfl) (fun i => ?_) j
  obtain ⟨k, hk⟩ := wrapCol_entry n u h0 i
  show IntOp.andi (IntOp.cmpi .sge (HostDefs.wrapCol n u i) 0#32) (IntOp.cmpi .sle (HostDefs.wrapCol n u i) hi) = 1#1
  rw [hk, h0 k, le_pred_of_lt _ n hi hn (h1 k)]
  rfl

/-! ## The fill under an all-ones mask -/

/-- Rows none of which is out of range are left as they are. -/
theorem filled_ones {F : FTy → Type} [FloatOps F] (g : FVec F S4096x32 .f32) : HostDefs.filled g (fun _ => 1#1) = g := by
  funext j
  unfold HostDefs.filled
  rw [ValueIdx.select_apply]
  exact ValueIdx.select_one _ _

/-! ## The precondition read back -/

/-- The rank-0 shape has one index. -/
instance : Subsingleton Cert.Pre_finite_inputs.S_.Idx := ⟨fun a b => funext fun d => d.elim0⟩

/-- The precondition's last two conjuncts, row by row: every user number is at least 0 and below 100000, every item
    number at least 0 and below 10000. -/
theorem pre_rows (m : (ℓ : Loc nD τ sig) → Buf (Elt Ideal) ℓ) (hpre : Cert.Pre_KernelIdeal m) (c : Dev nD) :
    (∀ i, IntOp.cmpi .sge (HostDefs.usersOf (m ((c : Thread nD τ).loc main_arg0)) i) 0#32 = 1#1
        ∧ IntOp.cmpi .slt (HostDefs.usersOf (m ((c : Thread nD τ).loc main_arg0)) i) 100000#32 = 1#1)
      ∧ ∀ i, IntOp.cmpi .sge (HostDefs.itemsOf (m ((c : Thread nD τ).loc main_arg0)) i) 0#32 = 1#1
        ∧ IntOp.cmpi .slt (HostDefs.itemsOf (m ((c : Thread nD τ).loc main_arg0)) i) 10000#32 = 1#1 := by
  have h := congrFun (hpre c) ValueIdx.ix0
  dsimp only [Cert.Pre_finite_inputs.fn, Cert.Pre_finite_inputs.fn_part1, Cert.Pre_finite_inputs.fn_part2,
    Cert.Pre_finite_inputs.fn_part3] at h
  -- the predicate is a chain of conjunctions; the users' test and the items' test are its last two members
  obtain ⟨hXU, hI⟩ := IntOp.andi_eq_one.1 h
  obtain ⟨-, hU⟩ := IntOp.andi_eq_one.1 hXU
  exact ⟨fun i => IntOp.andi_eq_one.1 (Host.reduce_andi_all _ _ _ _ _ hU i),
    fun i => IntOp.andi_eq_one.1 (Host.reduce_andi_all _ _ _ _ _ hI i)⟩

/-! ## The two hidden activations agree -/

/-- Under the precondition the hidden activations with the fill are the hidden activations without it. -/
theorem hiddenK_eq (m : (ℓ : Loc nD τ sig) → Buf (Elt Ideal) ℓ) (hpre : Cert.Pre_KernelIdeal m) (c : Dev nD) :
    HostDefs.hiddenK (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      = HostDefs.hidden (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  obtain ⟨hu, hi⟩ := pre_rows m hpre c
  unfold HostDefs.hiddenK HostDefs.hidden
  rw [inRange_wrapCol 100000#32 99999#32 (by decide) _ (fun i => (hu i).1) (fun i => (hu i).2),
    inRange_wrapCol 10000#32 9999#32 (by decide) _ (fun i => (hi i).1) (fun i => (hi i).2),
    filled_ones, filled_ones]

end Cert.KernelIdeal.PreDecode

end
-- ==== Proof.KHead.lean ====
/-
  The whole-array function over the operand arrays, with the operands read as the host operations made them from
  the program's arguments, is the head of Spec.lean over the arguments: the item column is the item numbers, the wide
  and deep weights are the first 10000 and the last 128 columns of the head's weights, the bias row is the bias.
-/
import proofs.«412227_j71700184039630_1_alg».proof.Proof.KDefs
import proofs.«412227_j71700184039630_1_alg».proof.Proof.HostDefs
import proofs.«412227_j71700184039630_1_alg».proof.Proof.Spec
import proofs.«412227_j71700184039630_1_alg».proof.Proof.LibRowLayers

set_option maxRecDepth 16384

noncomputable section

open scoped BigOperators

namespace Cert.KernelIdeal.KHead

open Cert.KernelIdeal Cert.KernelIdeal.Gen Cert.KernelIdeal.KDefs
open Idealize.ShloMosaic Idealize.ShloMosaic.ValueIdx

/-- With the operands as the host operations compose them, the whole-array function is the head. -/
theorem Gv_eq_head (it : IVec S4096 32) (h : FVec Ideal S4096x128 .f32) (a7 : FVec Ideal S10000x10128 .f32) (a8 : FVec Ideal S10000 .f32) :
    Gv (shapeCast S4096x1 it shapeCasts_S4096_S4096x1) (truncf (F := Ideal) .bf16 h bitsLt_bf16_f32)
        (truncf (F := Ideal) .bf16 (extractStridedSlice S10000x10000 ![0, 0] a7 slices_S10000x10128_S10000x10000_0_0) bitsLt_bf16_f32)
        (truncf (F := Ideal) .bf16 (extractStridedSlice S10000x128 ![0, 10000] a7 slices_S10000x10128_S10000x128_0_10000) bitsLt_bf16_f32)
        (shapeCast S1x10000 a8 shapeCasts_S10000_S1x10000)
      = WideDeep.head it h a7 a8 := by
  funext i
  obtain ⟨r, n, rfl⟩ : ∃ r n, i = ix2 r n := ⟨i 0, i 1, eq_ix2 i⟩
  -- each operand read at its index: the column at (r, 0) is item number r; the narrowing is the identity; the two
  -- bands of the weights at (n, k) and (n, j) are the weights at columns k and 10000 + j; the row at (0, n) is bias n
  have e1 : shapeCast S4096x1 it shapeCasts_S4096_S4096x1 (ix2 r (0 : Fin 1)) = it (ix1 r) :=
    RowLayers.column_apply _ it r 0
  have e2 : ∀ k : Fin 10000, extractStridedSlice S10000x10000 ![0, 0] a7 slices_S10000x10128_S10000x10000_0_0 (ix2 n k)
      = a7 (ix2 n (⟨k.val, by omega⟩ : Fin 10128)) := fun k =>
    slice2_axis1_apply 0 a7 _ n k ⟨k.val, by omega⟩ (Nat.zero_add _).symm
  have e3 : ∀ j : Fin 128, extractStridedSlice S10000x128 ![0, 10000] a7 slices_S10000x10128_S10000x128_0_10000 (ix2 n j)
      = a7 (ix2 n (⟨10000 + j.val, by omega⟩ : Fin 10128)) := fun j =>
    slice2_axis1_apply 10000 a7 _ n j ⟨10000 + j.val, by omega⟩ rfl
  have e4 : shapeCast S1x10000 a8 shapeCasts_S10000_S1x10000 (ix2 (0 : Fin 1) n) = a8 (ix1 n) :=
    shapeCast_a_1a_apply a8 _ 0 n
  show Ideal.logistic (((∑ k : Fin 10000, WideDeep.hot (shapeCast S4096x1 it shapeCasts_S4096_S4096x1 (ix2 r (0 : Fin 1))) k
          * extractStridedSlice S10000x10000 ![0, 0] a7 slices_S10000x10128_S10000x10000_0_0 (ix2 n k))
        + (∑ j : Fin 128, h (ix2 r j)
          * extractStridedSlice S10000x128 ![0, 10000] a7 slices_S10000x10128_S10000x128_0_10000 (ix2 n j)))
        + shapeCast S1x10000 a8 shapeCasts_S10000_S1x10000 (ix2 (0 : Fin 1) n))
      = Ideal.logistic (((∑ k : Fin 10000, WideDeep.hot (it (ix1 r)) k * a7 (ix2 n (⟨k.val, by omega⟩ : Fin 10128)))
        + (∑ j : Fin 128, h (ix2 r j) * a7 (ix2 n (⟨10000 + j.val, by omega⟩ : Fin 10128))))
        + a8 (ix1 n))
  rw [e1, e4]
  refine congrArg Ideal.logistic (congrArg₂ (· + ·) (congrArg₂ (· + ·) ?_ ?_) rfl)
  · exact Finset.sum_congr rfl fun k _ => by rw [e2 k]
  · exact Finset.sum_congr rfl fun j _ => by rw [e3 j]

end Cert.KernelIdeal.KHead

end
-- ==== Proof.HostDefsR.lean ====
/-
  The reference's host computation in front of its head, named piece by piece (at any float instance): the two
  index columns, each wrapped by its table's length and gathered, and the two-layer network on the two embeddings
  laid side by side. Word for word the pieces the kernel's program has, without the fill.
-/
import proofs.«412227_j71700184039630_1_alg».proof.Proof.Gen.ReferenceIdeal

noncomputable section

namespace Cert.ReferenceIdeal.HostDefs

open Cert.ReferenceIdeal Cert.ReferenceIdeal.Facts₀ Cert.ReferenceIdeal.Facts Idealize.ShloMosaic

variable {F : FTy → Type} [FloatOps F]

/-- Column 0 of the interactions: the user numbers. -/
def usersOf (a0 : IVec S4096x2 32) : IVec S4096 32 :=
  shapeCast S4096 (extractStridedSlice S4096x1 ![0, 0] a0 slices_S4096x2_S4096x1_0_0) shapeCasts_S4096x1_S4096

/-- Column 1 of the interactions: the item numbers. -/
def itemsOf (a0 : IVec S4096x2 32) : IVec S4096 32 :=
  shapeCast S4096 (extractStridedSlice S4096x1 ![0, 1] a0 slices_S4096x2_S4096x1_0_1) shapeCasts_S4096x1_S4096

/-- An index vector with its negative entries wrapped by the table's length n, as a column. -/
def wrapCol (n : BitVec 32) (u : IVec S4096 32) : IVec S4096x1 32 :=
  broadcastInDim S4096x1 ![0] bcast_S4096_S4096x1_0
    (select (cmpi .slt u (broadcastInDim S4096 ![] bcast_S_S4096 (constantI S_ 32 0#32)))
      (addi u (broadcastInDim S4096 ![] bcast_S_S4096 (constantI S_ 32 n))) u)

/-- Rows of the user table at the wrapped user numbers. -/
def userRows (a1 : FVec F S100000x32 .f32) (a0 : IVec S4096x2 32) : FVec F S4096x32 .f32 :=
  Host.gather gather_S100000x32_S4096x1_S4096x32_1_0_n_n_0_1_132 a1 (wrapCol 100000#32 (usersOf a0))

/-- Rows of the item table at the wrapped item numbers. -/
def itemRows (a2 : FVec F S10000x32 .f32) (a0 : IVec S4096x2 32) : FVec F S4096x32 .f32 :=
  Host.gather gather_S10000x32_S4096x1_S4096x32_1_0_n_n_0_1_132 a2 (wrapCol 10000#32 (itemsOf a0))

/-- The two-layer network on the two embeddings laid side by side. -/
def mlp (eu ei : FVec F S4096x32 .f32) (a3 : FVec F S128x64 .f32) (a4 : FVec F S128 .f32)
    (a5 : FVec F S128x128 .f32) (a6 : FVec F S128 .f32) : FVec F S4096x128 .f32 :=
  maximumf
    (addf
      (Host.dotGeneral dot_S4096x128_S128x128_S4096x128_1_0_0_1_n_n none
        (maximumf
          (addf
            (Host.dotGeneral dot_S4096x64_S64x128_S4096x128_1_0_0_1_n_n none
              (concatenate S4096x64 1 [⟨S4096x32, eu⟩, ⟨S4096x32, ei⟩] concatenates_S4096x32_S4096x32_S4096x64_d1)
              (transpose S64x128 [1, 0] a3 transposes_S128x64_S64x128_1_0))
            (broadcastInDim S4096x128 ![0, 1] bcast_S1x128_S4096x128_0_1 (broadcastInDim S1x128 ![1] bcast_S128_S1x128_1 a4)))
          (broadcastInDim S4096x128 ![] bcast_S_S4096x128 (constant S_ .f32 0x00000000#32)))
        (transpose S128x128 [1, 0] a5 transposes_S128x128_S128x128_1_0))
      (broadcastInDim S4096x128 ![0, 1] bcast_S1x128_S4096x128_0_1 (broadcastInDim S1x128 ![1] bcast_S128_S1x128_1 a6)))
    (broadcastInDim S4096x128 ![] bcast_S_S4096x128 (constant S_ .f32 0x00000000#32))

/-- The hidden activations. -/
def hidden (a0 : IVec S4096x2 32) (a1 : FVec F S100000x32 .f32) (a2 : FVec F S10000x32 .f32) (a3 : FVec F S128x64 .f32)
    (a4 : FVec F S128 .f32) (a5 : FVec F S128x128 .f32) (a6 : FVec F S128 .f32) : FVec F S4096x128 .f32 :=
  mlp (userRows a1 a0) (itemRows a2 a0) a3 a4 a5 a6

end Cert.ReferenceIdeal.HostDefs

end
-- ==== Proof.RefSide.lean ====
/-
  The reference's result, entry by entry: its one product over the indicator rows and the hidden activations laid
  side by side is the sum split at the seam, so its result is the head of Spec.lean.
-/
import proofs.«412227_j71700184039630_1_alg».proof.Proof.Gen.ReferenceIdeal.Read
import proofs.«412227_j71700184039630_1_alg».proof.Proof.HostDefsR
import proofs.«412227_j71700184039630_1_alg».proof.Proof.Spec
import proofs.«412227_j71700184039630_1_alg».proof.Proof.LibRowLayers

noncomputable section

open scoped BigOperators

namespace Cert.ReferenceIdeal.RefSide

open Cert.ReferenceIdeal Cert.ReferenceIdeal.Gen Cert.ReferenceIdeal.Facts₀ Cert.ReferenceIdeal.Facts
open Idealize.ShloMosaic Idealize.ShloMosaic.TcCoe Idealize.SL.Sem Idealize.ShloMosaic.ValueIdx

/-- The record of the head's product (contract the columns of the left matrix with the rows of the right one, nothing
    batched) is the plain product of a 4096×10128 by a 10128×10000 matrix. -/
theorem dot_eq : dot_S4096x10128_S10128x10000_S4096x10000_1_0_0_1_n_n = DotDims.plain 4096 10128 10000 := rfl

/-- The indicator matrix at (r, k): the item numbers as a column repeated across 10000 columns, compared for
    equality with the column numbers 0, …, 9999 repeated down the rows, the one-bit answer read as a number. That is
    one where item r's number is k and zero elsewhere. -/
theorem hot_apply (hc : S4096.BroadcastsInDim S4096x1 ![0]) (ha : S4096x1.BroadcastsInDim S4096x10000 ![0, 1])
    (hd : S1x10000.BroadcastsInDim S4096x10000 ![0, 1]) (it : IVec S4096 32) (r : Fin 4096) (k : Fin 10000) :
    uitofp (F := Ideal) .f32
        (cmpi .eq (broadcastInDim S4096x10000 ![0, 1] ha (broadcastInDim S4096x1 ![0] hc it))
          (broadcastInDim S4096x10000 ![0, 1] hd (iotaInDim S1x10000 32 1))) (ix2 r k)
      = WideDeep.hot (it (ix1 r)) k := by
  show (((IntOp.cmpi .eq (broadcastInDim S4096x10000 ![0, 1] ha (broadcastInDim S4096x1 ![0] hc it) (ix2 r k))
      (broadcastInDim S4096x10000 ![0, 1] hd (iotaInDim S1x10000 32 1) (ix2 r k))).toNat : ℝ) : EReal) = _
  -- the left operand reads item r's number, the right one the column number k as a 32-bit word
  rw [RowLayers.columnAcross_apply, RowLayers.columnBroadcast_apply, RowLayers.rowDown_apply, iotaInDim_apply]
  show (((IntOp.cmpi .eq (it (ix1 r)) (BitVec.ofNat 32 k.val)).toNat : ℝ) : EReal)
    = if it (ix1 r) = BitVec.ofNat 32 k.val then 1 else 0
  -- the bit of an equality test is 1 or 0 as the two words are equal or not
  by_cases h : it (ix1 r) = BitVec.ofNat 32 k.val
  · simp [IntOp.cmpi, h]
  · simp [IntOp.cmpi, h]

/-- The reference's head, for any item numbers `it` and hidden activations `h`: the logistic function, spelt
    1 / (1 + exp (−x)), of the product of [indicator rows | h] with the transposed weights plus the bias. At (r, n) the
    product is a sum over 10128 columns; split at the seam, the first 10000 terms read the indicator row and the
    last 128 the hidden vector, which is the score of the specification. -/
theorem head_eq (hs hs' : S_.BroadcastsInDim S4096x10000 ![]) (hc : S4096.BroadcastsInDim S4096x1 ![0])
    (ha : S4096x1.BroadcastsInDim S4096x10000 ![0, 1]) (hd : S1x10000.BroadcastsInDim S4096x10000 ![0, 1])
    (hcat : Shape.Concatenates [S4096x10000, S4096x128] S4096x10128 1)
    (htr : S10000x10128.Transposes [1, 0] S10128x10000) (h1 : S10000.BroadcastsInDim S1x10000 ![1])
    (it : IVec S4096 32) (h : FVec Ideal S4096x128 .f32) (a7 : FVec Ideal S10000x10128 .f32) (a8 : FVec Ideal S10000 .f32) :
    Host.divf (broadcastInDim S4096x10000 ![] hs (constant S_ .f32 0x3F800000#32))
      (addf (broadcastInDim S4096x10000 ![] hs' (constant S_ .f32 0x3F800000#32))
        (Host.exp (Host.negf (addf
          (Host.dotGeneral dot_S4096x10128_S10128x10000_S4096x10000_1_0_0_1_n_n none
            (concatenate S4096x10128 1
              [⟨S4096x10000, uitofp .f32 (cmpi .eq (broadcastInDim S4096x10000 ![0, 1] ha (broadcastInDim S4096x1 ![0] hc it))
                  (broadcastInDim S4096x10000 ![0, 1] hd (iotaInDim S1x10000 32 1)))⟩,
                ⟨S4096x128, h⟩] hcat)
            (transpose S10128x10000 [1, 0] a7 htr))
          (broadcastInDim S4096x10000 ![0, 1] hd (broadcastInDim S1x10000 ![1] h1 a8))))))
      = WideDeep.head it h a7 a8 := by
  funext i
  obtain ⟨r, n, rfl⟩ : ∃ (r : Fin 4096) (n : Fin 10000), i = ix2 r n := ⟨i 0, i 1, eq_ix2 i⟩
  rw [WideDeep.head_ix2]
  show Ideal.div _ (_ + Ideal.exp (-(addf (F := Ideal) (s := S4096x10000) (φ := .f32) _ _ (ix2 r n)))) = _
  -- the two scalar ones; the affine layer at (r, n) as a sum over the 10128 columns plus b(n); the sum split at the seam
  rw [RowLayers.scalarBroadcast_apply, Ideal.ofBits_one_f32, dot_eq, RowLayers.hostAffine_apply, WideDeep.sum_split]
  -- both sides are now 1 / (1 + exp (−x)): compare the arguments x
  show _ = Ideal.div 1 (1 + Ideal.exp (-(WideDeep.scoreAt it h a7 a8 r n)))
  refine congrArg (fun x => Ideal.div 1 (1 + Ideal.exp (-x))) ?_
  unfold WideDeep.scoreAt
  refine congrArg₂ (· + ·) (congrArg₂ (· + ·) (Finset.sum_congr rfl fun k _ => ?_) (Finset.sum_congr rfl fun j _ => ?_)) rfl
  · -- left of the seam: the indicator entry
    rw [RowLayers.catCols_left hcat _ _ r _ k rfl, hot_apply]
  · -- right of the seam: the hidden entry, 10000 columns back
    rw [RowLayers.catCols_right hcat _ _ r _ j (Nat.add_comm _ _)]

/-- Every weakly fair execution of the reference ends with its result at the head of the item numbers, the hidden
    activations, the head's weights and its bias, and with its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43)
          = WideDeep.head (HostDefs.itemsOf (m ((c.tc : Thread nD τ).loc main_arg0)))
              (HostDefs.hidden (F := Ideal) (m ((c.tc : Thread nD τ).loc main_arg0)) (m ((c.tc : Thread nD τ).loc main_arg1))
                (m ((c.tc : Thread nD τ).loc main_arg2)) (m ((c.tc : Thread nD τ).loc main_arg3)) (m ((c.tc : Thread nD τ).loc main_arg4))
                (m ((c.tc : Thread nD τ).loc main_arg5)) (m ((c.tc : Thread nD τ).loc main_arg6)))
              (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  -- the run ends at the composed term of the arguments; its item column and its hidden part are, operation for
  -- operation, the named pieces, so the term is the head of those two and of the last two arguments
  refine (θ_run defs _ _).mono (fun _ h c => ⟨(h c).1.trans ?_, (h c).2⟩) (Cert.ReferenceIdeal.Value.run (F := Ideal) m ρ)
  exact head_eq _ _ _ _ _ _ _ _ (HostDefs.itemsOf (m ((c.tc : Thread nD τ).loc main_arg0)))
    (HostDefs.hidden (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)))
    (m ((c.tc : Thread nD τ).loc main_arg7)) (m ((c.tc : Thread nD τ).loc main_arg8))

end Cert.ReferenceIdeal.RefSide

end
-- ==== Proof.Bridge.lean ====
/-
  The two programs' host terms in front of the head are the same terms: each is printed with its own copy of the
  shapes and of the operations' dimension records, and the copies agree field by field.
-/
import proofs.«412227_j71700184039630_1_alg».proof.Proof.HostDefs
import proofs.«412227_j71700184039630_1_alg».proof.Proof.HostDefsR
import Idealize.ShloMosaic.PureOps.Ideal

noncomputable section

namespace Cert.Bridge

open Idealize.ShloMosaic

/-- The item numbers are cut from the interactions the same way in both programs. -/
theorem items_eq (a0 : IVec Cert.KernelIdeal.S4096x2 32) :
    Cert.ReferenceIdeal.HostDefs.itemsOf a0 = Cert.KernelIdeal.HostDefs.itemsOf a0 := rfl

/-- The hidden activations (without the fill) are the same term in both programs. -/
theorem hidden_eq (a0 : IVec Cert.KernelIdeal.S4096x2 32) (a1 : FVec Ideal Cert.KernelIdeal.S100000x32 .f32)
    (a2 : FVec Ideal Cert.KernelIdeal.S10000x32 .f32) (a3 : FVec Ideal Cert.KernelIdeal.S128x64 .f32)
    (a4 : FVec Ideal Cert.KernelIdeal.S128 .f32) (a5 : FVec Ideal Cert.KernelIdeal.S128x128 .f32)
    (a6 : FVec Ideal Cert.KernelIdeal.S128 .f32) :
    Cert.ReferenceIdeal.HostDefs.hidden (F := Ideal) a0 a1 a2 a3 a4 a5 a6
      = Cert.KernelIdeal.HostDefs.hidden (F := Ideal) a0 a1 a2 a3 a4 a5 a6 := rfl

end Cert.Bridge

end
-- ==== Proof.lean ====
/-
  The certificate's five claims.

  The kernel's program gathers a user row and an item row per batch entry, runs a two-layer network on them on the
  host, and computes the wide-and-deep head in one pallas_call tiled 27 × 16 over (output units, batch): per tile the
  indicator rows of the items against a block of the first 10000 weight columns, plus the hidden rows against a block
  of the last 128, plus the bias, through the logistic function. The reference lays the indicator rows and the hidden
  rows side by side and takes one product with all 10128 weight columns. Over the extended reals the two are the same
  sum split at the seam (Spec.lean), so the two results agree entry by entry.

  The statement's precondition asks, beside finite float inputs, that every user number lies in 0 … 99999 and every
  item number in 0 … 9999: outside that range the reference indexes its tables out of range, and the kernel's
  program replaces such a row by a fill word, so the claim needs it; inside it the fill never fires (PreDecode.lean).
  Finiteness is not used.

  The frames: the body loads five whole buffers and stores one (BodyI.lean for the idealized program, its copy for the
  word-level one); the three inputs tiled along the output units and the output overhang their arrays at the last
  tile, so their buffers are named only on the part inside the array (LibClip.lean: a clipped input kept over
  the points that do not refetch it still holds its block there). For the frame claims the output's contents are
  forgotten; for the value claim, at the exact instance, an output entry inside the array reads only operand rows
  inside their arrays (KVal.lean, KBlocks.lean), the blocks cover the array (KCover.lean), and the result is one
  whole-array function of the operands (KRun.lean), which the host terms turn into the head (HostK.lean, KHead.lean).
  The reference's run is the generated one, its result read as the same head (RefSide.lean).
-/
import proofs.«412227_j71700184039630_1_alg».proof.Defs
import proofs.«412227_j71700184039630_1_alg».proof.Proof.Gen.Kernel
import proofs.«412227_j71700184039630_1_alg».proof.Proof.Gen.KernelIdeal
import proofs.«412227_j71700184039630_1_alg».proof.Proof.Gen.ReferenceIdeal
import proofs.«412227_j71700184039630_1_alg».proof.Proof.Gen.Pre_finite_inputs
import proofs.«412227_j71700184039630_1_alg».proof.Proof.Gen.ReferenceIdeal.Run
import proofs.«412227_j71700184039630_1_alg».proof.Proof.Gen.ReferenceIdeal.Read
import proofs.«412227_j71700184039630_1_alg».proof.Proof.BodyB
import proofs.«412227_j71700184039630_1_alg».proof.Proof.BodyI
import proofs.«412227_j71700184039630_1_alg».proof.Proof.KRun
import proofs.«412227_j71700184039630_1_alg».proof.Proof.HostK
import proofs.«412227_j71700184039630_1_alg».proof.Proof.PreDecode
import proofs.«412227_j71700184039630_1_alg».proof.Proof.KHead
import proofs.«412227_j71700184039630_1_alg».proof.Proof.RefSide
import proofs.«412227_j71700184039630_1_alg».proof.Proof.Bridge
import Idealize.ShloMosaic.Adequacy
import Idealize.ShloMosaic.Init

noncomputable section

namespace Cert.Proof

open Idealize.ShloMosaic Idealize.ShloMosaic.TcCoe Idealize.SL.Sem

/-- The word-level program terminates without a fault and leaves its arguments unchanged. -/
theorem frame_k : Cert.frame_Kernel := fun m ρ _ => Cert.Kernel.Body.frame (F := Bits) m ρ

/-- So does the idealized program. -/
theorem frame_ki : Cert.frame_KernelIdeal := fun m ρ _ => Cert.KernelIdeal.Body.frame (F := Ideal) m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Under the precondition, what the kernel's program leaves in its result array is the head of the item numbers,
    the hidden activations (without the fill), the head's weights and its bias. -/
theorem result_k (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.KDefs.GV m c
      = WideDeep.head (Cert.KernelIdeal.HostDefs.itemsOf (m ((c.tc : Thread Cert.KernelIdeal.nD Cert.KernelIdeal.τ).loc Cert.KernelIdeal.main_arg0)))
          (Cert.KernelIdeal.HostDefs.hidden (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6)))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) := by
  unfold Cert.KernelIdeal.KDefs.GV
  rw [Cert.KernelIdeal.HostK.V_items m c, Cert.KernelIdeal.HostK.V_hidden m c, Cert.KernelIdeal.HostK.V_wide m c,
    Cert.KernelIdeal.HostK.V_deep m c, Cert.KernelIdeal.HostK.V_bias m c, Cert.KernelIdeal.PreDecode.hiddenK_eq m hpre c]
  exact Cert.KernelIdeal.KHead.Gv_eq_head _ _ _ _

/-- The two idealized programs, run from memories that agree on the arguments, both end, with equal results. -/
theorem algebraic : Cert.algebraic_KernelIdeal_ReferenceIdeal := by
  intro m ρ m' ρ' hpre hagree
  refine ⟨fun c => Cert.KernelIdeal.KDefs.GV m c, ?_, ?_⟩
  · exact Cert.KernelIdeal.KRun.run m ρ
  · refine (θ_run Cert.ReferenceIdeal.defs _ _).mono (fun _ h c => ⟨(h c).1.trans ?_, (h c).2⟩)
      (Cert.ReferenceIdeal.RefSide.run m' ρ')
    show _ = Cert.KernelIdeal.KDefs.GV m c
    rw [result_k m hpre c, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2,
      Cert.Bridge.items_eq, Cert.Bridge.hidden_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
